-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S50000 : Shape := ⟨1, ![50000]⟩
abbrev S500 : Shape := ⟨1, ![500]⟩
abbrev S64x64 : Shape := ⟨2, ![64, 64]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg10 : FVec F S1x64 .f32) (main_arg11 : FVec F S1 .f32) (main_v33 : IVec S_ 1) : IVec S_ 1 :=
  let main_v34 : FVec F S1x64 .f32 := Host.absf main_arg10
  let main_cst_12 : FVec F S_ .f32 := constant S_ .f32 0x7F800000#32
  let main_v35 : FVec F S1x64 .f32 := broadcastInDim S1x64 ![] bcast_S_S1x64 main_cst_12
  let main_v36 : IVec S1x64 1 := cmpf .olt main_v34 main_v35
  let main_c_13 : IVec S_ 1 := constantI S_ 1 1#1
  let main_v37 : IVec S_ 1 := (fun x v => Host.reduce IntOp.andi x v reducesTo_S1x64_S_d0_1 h_S_) main_v36 main_c_13
  let main_v38 : IVec S_ 1 := andi main_v33 main_v37
  let main_v39 : FVec F S1 .f32 := Host.absf main_arg11
  let main_cst_14 : FVec F S_ .f32 := constant S_ .f32 0x7F800000#32
  let main_v40 : FVec F S1 .f32 := broadcastInDim S1 ![] bcast_S_S1 main_cst_14
  let main_v41 : IVec S1 1 := cmpf .olt main_v39 main_v40
  let main_c_15 : IVec S_ 1 := constantI S_ 1 1#1
  let main_v42 : IVec S_ 1 := (fun x v => Host.reduce IntOp.andi x v reducesTo_S1_S_d0 h_S_) main_v41 main_c_15
  let main_v43 : IVec S_ 1 := andi main_v38 main_v42
  main_v43

def fn_part1 {F : FTy → Type} [FloatOps F] (main_arg7 : FVec F S64x64 .f32) (main_arg8 : FVec F S64 .f32) (main_arg9 : FVec F S64x64 .f32) (main_arg10 : FVec F S1x64 .f32) (main_arg11 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg7
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg8
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg9
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg10 main_arg11 main_v33

def fn {F : FTy → Type} [FloatOps F] (main_arg0 : FVec F S50000x64 .f32) (main_arg1 : IVec S2x800000 32) (main_arg2 : IVec S50000 32) (main_arg3 : IVec S500 32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S1x64 .f32) (main_arg11 : FVec F S1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_arg10 main_arg11 main_v13 main_v16
-- ==== Kernel.lean ====
abbrev S50000x64 : Shape := ⟨2, ![50000, 64]⟩
abbrev S2x800000 : Shape := ⟨2, ![2, 800000]⟩
abbrev S50000 : Shape := ⟨1, ![50000]⟩
abbrev S500 : Shape := ⟨1, ![500]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S800000x64 : Shape := ⟨2, ![800000, 64]⟩
abbrev S10000x64 : Shape := ⟨2, ![10000, 64]⟩
abbrev S500x1 : Shape := ⟨2, ![500, 1]⟩
abbrev S500x64 : Shape := ⟨2, ![500, 64]⟩
abbrev S64x1 : Shape := ⟨2, ![64, 1]⟩
abbrev S1x1 : Shape := ⟨2, ![1, 1]⟩

abbrev nBuf : Space → Nat
  | .hbm => 104
  | .vmem => 18
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S500, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S1x64, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .f32⟩
  | .hbm, ⟨17, _⟩ => ⟨S800000, .f32⟩
  | .hbm, ⟨18, _⟩ => ⟨S_, .f32⟩
  | .hbm, ⟨19, _⟩ => ⟨S50000, .f32⟩
  | .hbm, ⟨20, _⟩ => ⟨S800000x1, .i32⟩
  | .hbm, ⟨21, _⟩ => ⟨S50000, .f32⟩
  | .hbm, ⟨22, _⟩ => ⟨S_, .f32⟩
  | .hbm, ⟨23, _⟩ => ⟨S50000, .f32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S50000x1, .f32⟩
  | .hbm, ⟨29, _⟩ => ⟨S_, .i32⟩
  | .hbm, ⟨30, _⟩ => ⟨S800000, .i32⟩
  | .hbm, ⟨31, _⟩ => ⟨S800000, .i1⟩
  | .hbm, ⟨32, _⟩ => ⟨S_, .i32⟩
  | .hbm, ⟨33, _⟩ => ⟨S800000, .i32⟩
  | .hbm, ⟨34, _⟩ => ⟨S800000, .i32⟩
  | .hbm, ⟨35, _⟩ => ⟨S800000, .i32⟩
  | .hbm, ⟨36, _⟩ => ⟨S800000x1, .i32⟩
  | .hbm, ⟨37, _⟩ => ⟨S800000x64, .f32⟩
  | .hbm, ⟨38, _⟩ => ⟨S_, .f32⟩
  | .hbm, ⟨39, _⟩ => ⟨S50000x64, .f32⟩
  | .hbm, ⟨40, _⟩ => ⟨S800000x1, .i32⟩
  | .hbm, ⟨41, _⟩ => ⟨S50000x64, .f32⟩
  | .hbm, ⟨42, _⟩ => ⟨S50000x64, .f32⟩
  | .hbm, ⟨43, _⟩ => ⟨S50000x64, .f32⟩
  | .hbm, ⟨44, _⟩ => ⟨S64x64, .f32⟩
  | .hbm, ⟨45, _⟩ => ⟨S64x64, .f32⟩
  | .hbm, ⟨46, _⟩ => ⟨S50000x64, .bf16⟩
  | .hbm, ⟨47, _⟩ => ⟨S_, .i32⟩
  | .hbm, ⟨48, _⟩ => ⟨S800000, .i32⟩
  | .hbm, ⟨49, _⟩ => ⟨S800000, .i1⟩
  | .hbm, ⟨50, _⟩ => ⟨S_, .i32⟩
  | .hbm, ⟨51, _⟩ => ⟨S800000, .i32⟩
  | .hbm, ⟨52, _⟩ => ⟨S800000, .i32⟩
  | .hbm, ⟨53, _⟩ => ⟨S800000, .i32⟩
  | .hbm, ⟨54, _⟩ => ⟨S800000x1, .i32⟩
  | .hbm, ⟨55, _⟩ => ⟨S800000x64, .bf16⟩
  | .hbm, ⟨56, _⟩ => ⟨S800000x64, .f32⟩
  | .hbm, ⟨57, _⟩ => ⟨S_, .f32⟩
  | .hbm, ⟨58, _⟩ => ⟨S50000x64, .f32⟩
  | .hbm, ⟨59, _⟩ => ⟨S800000x1, .i32⟩
  | .hbm, ⟨60, _⟩ => ⟨S50000x64, .f32⟩
  | .hbm, ⟨61, _⟩ => ⟨S50000x64, .f32⟩
  | .hbm, ⟨62, _⟩ => ⟨S50000x64, .f32⟩
  | .hbm, ⟨63, _⟩ => ⟨S64x64, .f32⟩
  | .hbm, ⟨64, _⟩ => ⟨S64x64, .f32⟩
  | .hbm, ⟨65, _⟩ => ⟨S50000x64, .bf16⟩
  | .hbm, ⟨66, _⟩ => ⟨S_, .i32⟩
  | .hbm, ⟨67, _⟩ => ⟨S500, .i32⟩
  | .hbm, ⟨68, _⟩ => ⟨S_, .i32⟩
  | .hbm, ⟨69, _⟩ => ⟨S_, .i32⟩
  | .hbm, ⟨70, _⟩ => ⟨S50000, .i32⟩
  | .hbm, ⟨71, _⟩ => ⟨S50000, .i32⟩
  | .hbm, ⟨72, _⟩ => ⟨S_, .i32⟩
  | .hbm, ⟨73, _⟩ => ⟨S50000, .i32⟩
  | .hbm, ⟨74, _⟩ => ⟨S50000, .i1⟩
  | .hbm, ⟨75, _⟩ => ⟨S_, .i32⟩
  | .hbm, ⟨76, _⟩ => ⟨S50000, .i32⟩
  | .hbm, ⟨77, _⟩ => ⟨S50000, .i32⟩
  | .hbm, ⟨78, _⟩ => ⟨S50000, .i32⟩
  | .hbm, ⟨79, _⟩ => ⟨S50000x1, .i32⟩
  | .hbm, ⟨80, _⟩ => ⟨S_, .i32⟩
  | .hbm, ⟨81, _⟩ => ⟨S50000, .i32⟩
  | .hbm, ⟨82, _⟩ => ⟨S500, .i32⟩
  | .hbm, ⟨83, _⟩ => ⟨S_, .i32⟩
  | .hbm, ⟨84, _⟩ => ⟨S_, .i32⟩
  | .hbm, ⟨85, _⟩ => ⟨S500, .i32⟩
  | .hbm, ⟨86, _⟩ => ⟨S500, .i32⟩
  | .hbm, ⟨87, _⟩ => ⟨S500, .i32⟩
  | .hbm, ⟨88, _⟩ => ⟨S_, .i32⟩
  | .hbm, ⟨89, _⟩ => ⟨S500, .i32⟩
  | .hbm, ⟨90, _⟩ => ⟨S500, .i1⟩
  | .hbm, ⟨91, _⟩ => ⟨S_, .i32⟩
  | .hbm, ⟨92, _⟩ => ⟨S500, .i32⟩
  | .hbm, ⟨93, _⟩ => ⟨S500, .i32⟩
  | .hbm, ⟨94, _⟩ => ⟨S500, .i32⟩
  | .hbm, ⟨95, _⟩ => ⟨S500x1, .i32⟩
  | .hbm, ⟨96, _⟩ => ⟨S500x64, .bf16⟩
  | .hbm, ⟨97, _⟩ => ⟨S500x64, .f32⟩
  | .hbm, ⟨98, _⟩ => ⟨S64x1, .f32⟩
  | .hbm, ⟨99, _⟩ => ⟨S500x1, .f32⟩
  | .hbm, ⟨100, _⟩ => ⟨S1x1, .f32⟩
  | .hbm, ⟨101, _⟩ => ⟨S500x1, .f32⟩
  | .hbm, ⟨102, _⟩ => ⟨S500x1, .f32⟩
  | .hbm, ⟨103, _⟩ => ⟨S500, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64, .f32⟩
  | .local _ .vmem, ⟨6, _⟩ => ⟨S64x64, .f32⟩
  | .local _ .vmem, ⟨7, _⟩ => ⟨S10000x64, .bf16⟩
  | .local _ .vmem, ⟨8, _⟩ => ⟨S10000x64, .bf16⟩
  | .local _ .vmem, ⟨9, _⟩ => ⟨S10000x64, .f32⟩
  | .local _ .vmem, ⟨10, _⟩ => ⟨S10000x64, .f32⟩
  | .local _ .vmem, ⟨11, _⟩ => ⟨S10000x64, .bf16⟩
  | .local _ .vmem, ⟨12, _⟩ => ⟨S10000x64, .bf16⟩
  | .local _ .vmem, ⟨13, _⟩ => ⟨S64x64, .f32⟩
  | .local _ .vmem, ⟨14, _⟩ => ⟨S64, .f32⟩
  | .local _ .vmem, ⟨15, _⟩ => ⟨S64x64, .f32⟩
  | .local _ .vmem, ⟨16, _⟩ => ⟨S10000x64, .bf16⟩
  | .local _ .vmem, ⟨17, _⟩ => ⟨S10000x64, .bf16⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_cst_1 : Ref sig .tc := ⟨.hbm, 22, rfl⟩
abbrev main_v8 : Ref sig .tc := ⟨.hbm, 23, rfl⟩
abbrev main_v9 : Ref sig .tc := ⟨.hbm, 24, rfl⟩
abbrev main_cst_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_c : Ref sig .tc := ⟨.hbm, 29, rfl⟩
abbrev main_v13 : Ref sig .tc := ⟨.hbm, 30, rfl⟩
abbrev main_v14 : Ref sig .tc := ⟨.hbm, 31, rfl⟩
abbrev main_c_3 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c_5 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_cst_7 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_c_8 : Ref sig .tc := ⟨.hbm, 66, rfl⟩
abbrev main_v44 : Ref sig .tc := ⟨.hbm, 67, rfl⟩
abbrev main_c_9 : Ref sig .tc := ⟨.hbm, 68, rfl⟩
abbrev main_call0_v0 : Ref sig .tc := ⟨.hbm, 69, rfl⟩
abbrev main_call0_v1 : Ref sig .tc := ⟨.hbm, 70, rfl⟩
abbrev main_v45 : Ref sig .tc := ⟨.hbm, 71, rfl⟩
abbrev main_c_10 : Ref sig .tc := ⟨.hbm, 72, rfl⟩
abbrev main_v46 : Ref sig .tc := ⟨.hbm, 73, rfl⟩
abbrev main_v47 : Ref sig .tc := ⟨.hbm, 74, rfl⟩
abbrev main_c_11 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_c_12 : Ref sig .tc := ⟨.hbm, 80, rfl⟩
abbrev main_v52 : Ref sig .tc := ⟨.hbm, 81, rfl⟩
abbrev main_v53 : Ref sig .tc := ⟨.hbm, 82, rfl⟩
abbrev main_call1_call0_c : Ref sig .tc := ⟨.hbm, 83, rfl⟩
abbrev main_call1_call0_v0 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_13 : Ref sig .tc := ⟨.hbm, 88, rfl⟩
abbrev main_v57 : Ref sig .tc := ⟨.hbm, 89, rfl⟩
abbrev main_v58 : Ref sig .tc := ⟨.hbm, 90, rfl⟩
abbrev main_c_14 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S10000x64 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  packedbf16_S10000x64_S10000x64_0_0 : (Rect.unit (s := S10000x64) ![0, 0] S10000x64.size inb_S10000x64_S10000x64_0_0).PackedRows (EltTy.packing .bf16)
  bcast_S_S500 : S_.BroadcastsInDim S500 (![] : Fin 0 → Fin S500.rank)
  bcast_S50000_S50000x1_0 : S50000.BroadcastsInDim S50000x1 (![0] : Fin 1 → Fin S50000x1.rank)
  bcast_S_S_ : S_.BroadcastsInDim S_ (![] : Fin 0 → Fin S_.rank)
  reduceWindows_S500_S500_w500s1p499_0 : S500.ReduceWindows (![500] : Fin 1 → Nat) ![1] ![499] ![0] S500
  h_S_ : 0 < S_.numel
  bcast_S500_S500x1_0 : S500.BroadcastsInDim S500x1 (![0] : Fin 1 → Fin S500x1.rank)
  transposes_S1x64_S64x1_1_0 : S1x64.Transposes [1, 0] S64x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  shapeCasts_S500x1_S500 : S500x1.ShapeCasts S500
  scatter_S50000_S800000x1_S800000_n_0_0_1_wf : ScatterDims.WF S50000 S800000x1 S800000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S10000x64_S64x64_S10000x64_1_0_0_1_n_n_wf : DotDims.WF S10000x64 S64x64 S10000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  dot_S500x64_S64x1_S500x1_1_0_0_1_n_n_wf : DotDims.WF S500x64 S64x1 S500x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S50000x64.size a
  hwx0_0 : ∀ i : grid0.Coords, EltTy.bits .f32 = 32 ∨ (Rect.block (s := S50000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S50000x64.size a
  hwx0_1 : ∀ i : grid0.Coords, EltTy.bits .f32 = 32 ∨ (Rect.block (s := S50000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S50000x64.size a
  hwx0_5 : ∀ i : grid0.Coords, EltTy.bits .bf16 = 32 ∨ (Rect.block (s := S50000x64) S10000x64.size (cc0_transform_5 i) (hinb0_5 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .f32 = 32 ∨ (Rect.block (s := S50000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S50000x64.size a
  hwx1_1 : ∀ i : grid1.Coords, EltTy.bits .bf16 = 32 ∨ (Rect.block (s := S50000x64) S10000x64.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x64.size a ≤ S64x64.size a
  hwx1_2 : ∀ i : grid1.Coords, EltTy.bits .f32 = 32 ∨ (Rect.block (s := S64x64) S64x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64.size a ≤ S64.size a
  hwx1_3 : ∀ i : grid1.Coords, EltTy.bits .f32 = 32 ∨ (Rect.block (s := S64) S64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S10000x64.size a ≤ S50000x64.size a
  hwx1_5 : ∀ i : grid1.Coords, EltTy.bits .bf16 = 32 ∨ (Rect.block (s := S50000x64) S10000x64.size (cc1_transform_5 i) (hinb1_5 i)).WholeWords (EltTy.packing .bf16)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

abbrev win0_0 : Pipeline.Window sig grid0 :=
  Pipeline.Window.ofSpec (Memref.whole main_v24) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v25) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v26) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v27) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v40) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v41) S64x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg8) S64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43) S10000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S50000 : Shape := ⟨1, ![50000]⟩
abbrev S500 : Shape := ⟨1, ![500]⟩
abbrev S64x64 : Shape := ⟨2, ![64, 64]⟩
abbrev S64 : Shape := ⟨1, ![64]⟩
abbrev S1x64 : Shape := ⟨2, ![1, 64]⟩
abbrev S1 : Shape := ⟨1, ![1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S500x1 : Shape := ⟨2, ![500, 1]⟩
abbrev S500x64 : Shape := ⟨2, ![500, 64]⟩
abbrev S64x1 : Shape := ⟨2, ![64, 1]⟩
abbrev S1x1 : Shape := ⟨2, ![1, 1]⟩

abbrev nBuf : Space → Nat
  | .hbm => 125
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S50000, .i32⟩
  | .hbm, ⟨3, _⟩ => ⟨S500, .i32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S64x64, .f32⟩
  | .hbm, ⟨10, _⟩ => ⟨S1x64, .f32⟩
  | .hbm, ⟨11, _⟩ => ⟨S1, .f32⟩
  | .hbm, ⟨12, _⟩ => ⟨S1x800000, .i32⟩
  | .hbm, ⟨13, _⟩ => ⟨S800000, .i32⟩
  | .hbm, ⟨14, _⟩ => ⟨S1x800000, .i32⟩
  | .hbm, ⟨15, _⟩ => ⟨S800000, .i32⟩
  | .hbm, ⟨16, _⟩ => ⟨S_, .i32⟩
  | .hbm, ⟨17, _⟩ => ⟨S800000, .i32⟩
  | .hbm, ⟨18, _⟩ => ⟨S800000, .i1⟩
  | .hbm, ⟨19, _⟩ => ⟨S_, .i32⟩
  | .hbm, ⟨20, _⟩ => ⟨S800000, .i32⟩
  | .hbm, ⟨21, _⟩ => ⟨S800000, .i32⟩
  | .hbm, ⟨22, _⟩ => ⟨S800000, .i32⟩
  | .hbm, ⟨23, _⟩ => ⟨S800000x1, .i32⟩
  | .hbm, ⟨24, _⟩ => ⟨S800000x64, .f32⟩
  | .hbm, ⟨25, _⟩ => ⟨S_, .f32⟩
  | .hbm, ⟨26, _⟩ => ⟨S50000x64, .f32⟩
  | .hbm, ⟨27, _⟩ => ⟨S800000x1, .i32⟩
  | .hbm, ⟨28, _⟩ => ⟨S50000x64, .f32⟩
  | .hbm, ⟨29, _⟩ => ⟨S_, .f32⟩
  | .hbm, ⟨30, _⟩ => ⟨S800000, .f32⟩
  | .hbm, ⟨31, _⟩ => ⟨S_, .f32⟩
  | .hbm, ⟨32, _⟩ => ⟨S50000, .f32⟩
  | .hbm, ⟨33, _⟩ => ⟨S800000x1, .i32⟩
  | .hbm, ⟨34, _⟩ => ⟨S50000, .f32⟩
  | .hbm, ⟨35, _⟩ => ⟨S_, .f32⟩
  | .hbm, ⟨36, _⟩ => ⟨S50000, .f32⟩
  | .hbm, ⟨37, _⟩ => ⟨S50000, .f32⟩
  | .hbm, ⟨38, _⟩ => ⟨S50000x1, .f32⟩
  | .hbm, ⟨39, _⟩ => ⟨S50000x64, .f32⟩
  | .hbm, ⟨40, _⟩ => ⟨S50000x64, .f32⟩
  | .hbm, ⟨41, _⟩ => ⟨S64x64, .f32⟩
  | .hbm, ⟨42, _⟩ => ⟨S50000x64, .f32⟩
  | .hbm, ⟨43, _⟩ => ⟨S1x64, .f32⟩
  | .hbm, ⟨44, _⟩ => ⟨S50000x64, .f32⟩
  | .hbm, ⟨45, _⟩ => ⟨S50000x64, .f32⟩
  | .hbm, ⟨46, _⟩ => ⟨S64x64, .f32⟩
  | .hbm, ⟨47, _⟩ => ⟨S50000x64, .f32⟩
  | .hbm, ⟨48, _⟩ => ⟨S50000x64, .f32⟩
  | .hbm, ⟨49, _⟩ => ⟨S_, .f32⟩
  | .hbm, ⟨50, _⟩ => ⟨S50000x64, .f32⟩
  | .hbm, ⟨51, _⟩ => ⟨S50000x64, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x64, .f32⟩
  | .hbm, ⟨61, _⟩ => ⟨S_, .f32⟩
  | .hbm, ⟨62, _⟩ => ⟨S50000x64, .f32⟩
  | .hbm, ⟨63, _⟩ => ⟨S800000x1, .i32⟩
  | .hbm, ⟨64, _⟩ => ⟨S50000x64, .f32⟩
  | .hbm, ⟨65, _⟩ => ⟨S_, .f32⟩
  | .hbm, ⟨66, _⟩ => ⟨S800000, .f32⟩
  | .hbm, ⟨67, _⟩ => ⟨S_, .f32⟩
  | .hbm, ⟨68, _⟩ => ⟨S50000, .f32⟩
  | .hbm, ⟨69, _⟩ => ⟨S800000x1, .i32⟩
  | .hbm, ⟨70, _⟩ => ⟨S50000, .f32⟩
  | .hbm, ⟨71, _⟩ => ⟨S_, .f32⟩
  | .hbm, ⟨72, _⟩ => ⟨S50000, .f32⟩
  | .hbm, ⟨73, _⟩ => ⟨S50000, .f32⟩
  | .hbm, ⟨74, _⟩ => ⟨S50000x1, .f32⟩
  | .hbm, ⟨75, _⟩ => ⟨S50000x64, .f32⟩
  | .hbm, ⟨76, _⟩ => ⟨S50000x64, .f32⟩
  | .hbm, ⟨77, _⟩ => ⟨S64x64, .f32⟩
  | .hbm, ⟨78, _⟩ => ⟨S50000x64, .f32⟩
  | .hbm, ⟨79, _⟩ => ⟨S1x64, .f32⟩
  | .hbm, ⟨80, _⟩ => ⟨S50000x64, .f32⟩
  | .hbm, ⟨81, _⟩ => ⟨S50000x64, .f32⟩
  | .hbm, ⟨82, _⟩ => ⟨S64x64, .f32⟩
  | .hbm, ⟨83, _⟩ => ⟨S50000x64, .f32⟩
  | .hbm, ⟨84, _⟩ => ⟨S50000x64, .f32⟩
  | .hbm, ⟨85, _⟩ => ⟨S_, .f32⟩
  | .hbm, ⟨86, _⟩ => ⟨S50000x64, .f32⟩
  | .hbm, ⟨87, _⟩ => ⟨S50000x64, .f32⟩
  | .hbm, ⟨88, _⟩ => ⟨S_, .i32⟩
  | .hbm, ⟨89, _⟩ => ⟨S500, .i32⟩
  | .hbm, ⟨90, _⟩ => ⟨S_, .i32⟩
  | .hbm, ⟨91, _⟩ => ⟨S_, .i32⟩
  | .hbm, ⟨92, _⟩ => ⟨S50000, .i32⟩
  | .hbm, ⟨93, _⟩ => ⟨S50000, .i32⟩
  | .hbm, ⟨94, _⟩ => ⟨S_, .i32⟩
  | .hbm, ⟨95, _⟩ => ⟨S50000, .i32⟩
  | .hbm, ⟨96, _⟩ => ⟨S50000, .i1⟩
  | .hbm, ⟨97, _⟩ => ⟨S_, .i32⟩
  | .hbm, ⟨98, _⟩ => ⟨S50000, .i32⟩
  | .hbm, ⟨99, _⟩ => ⟨S50000, .i32⟩
  | .hbm, ⟨100, _⟩ => ⟨S50000, .i32⟩
  | .hbm, ⟨101, _⟩ => ⟨S50000x1, .i32⟩
  | .hbm, ⟨102, _⟩ => ⟨S_, .i32⟩
  | .hbm, ⟨103, _⟩ => ⟨S50000, .i32⟩
  | .hbm, ⟨104, _⟩ => ⟨S500, .i32⟩
  | .hbm, ⟨105, _⟩ => ⟨S_, .i32⟩
  | .hbm, ⟨106, _⟩ => ⟨S_, .i32⟩
  | .hbm, ⟨107, _⟩ => ⟨S500, .i32⟩
  | .hbm, ⟨108, _⟩ => ⟨S500, .i32⟩
  | .hbm, ⟨109, _⟩ => ⟨S500, .i32⟩
  | .hbm, ⟨110, _⟩ => ⟨S_, .i32⟩
  | .hbm, ⟨111, _⟩ => ⟨S500, .i32⟩
  | .hbm, ⟨112, _⟩ => ⟨S500, .i1⟩
  | .hbm, ⟨113, _⟩ => ⟨S_, .i32⟩
  | .hbm, ⟨114, _⟩ => ⟨S500, .i32⟩
  | .hbm, ⟨115, _⟩ => ⟨S500, .i32⟩
  | .hbm, ⟨116, _⟩ => ⟨S500, .i32⟩
  | .hbm, ⟨117, _⟩ => ⟨S500x1, .i32⟩
  | .hbm, ⟨118, _⟩ => ⟨S500x64, .f32⟩
  | .hbm, ⟨119, _⟩ => ⟨S64x1, .f32⟩
  | .hbm, ⟨120, _⟩ => ⟨S500x1, .f32⟩
  | .hbm, ⟨121, _⟩ => ⟨S1x1, .f32⟩
  | .hbm, ⟨122, _⟩ => ⟨S500x1, .f32⟩
  | .hbm, ⟨123, _⟩ => ⟨S500x1, .f32⟩
  | .hbm, ⟨124, _⟩ => ⟨S500, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call0_cst : Ref sig .tc := ⟨.hbm, 49, rfl⟩
abbrev main_call0_v0 : Ref sig .tc := ⟨.hbm, 50, rfl⟩
abbrev main_v31 : Ref sig .tc := ⟨.hbm, 51, rfl⟩
abbrev main_c_4 : Ref sig .tc := ⟨.hbm, 52, rfl⟩
abbrev main_v32 : Ref sig .tc := ⟨.hbm, 53, rfl⟩
abbrev main_v33 : Ref sig .tc := ⟨.hbm, 54, rfl⟩
abbrev main_c_5 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_v42 : Ref sig .tc := ⟨.hbm, 66, rfl⟩
abbrev main_cst_8 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_call1_cst : Ref sig .tc := ⟨.hbm, 85, rfl⟩
abbrev main_call1_v0 : Ref sig .tc := ⟨.hbm, 86, rfl⟩
abbrev main_v59 : Ref sig .tc := ⟨.hbm, 87, rfl⟩
abbrev main_c_10 : Ref sig .tc := ⟨.hbm, 88, rfl⟩
abbrev main_v60 : Ref sig .tc := ⟨.hbm, 89, rfl⟩
abbrev main_c_11 : Ref sig .tc := ⟨.hbm, 90, rfl⟩
abbrev main_call2_v0 : Ref sig .tc := ⟨.hbm, 91, rfl⟩
abbrev main_call2_v1 : Ref sig .tc := ⟨.hbm, 92, rfl⟩
abbrev main_v61 : Ref sig .tc := ⟨.hbm, 93, rfl⟩
abbrev main_c_12 : Ref sig .tc := ⟨.hbm, 94, rfl⟩
abbrev main_v62 : Ref sig .tc := ⟨.hbm, 95, rfl⟩
abbrev main_v63 : Ref sig .tc := ⟨.hbm, 96, rfl⟩
abbrev main_c_13 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_c_14 : Ref sig .tc := ⟨.hbm, 102, rfl⟩
abbrev main_v68 : Ref sig .tc := ⟨.hbm, 103, rfl⟩
abbrev main_v69 : Ref sig .tc := ⟨.hbm, 104, rfl⟩
abbrev main_call3_call0_c : Ref sig .tc := ⟨.hbm, 105, rfl⟩
abbrev main_call3_call0_v0 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_c_15 : Ref sig .tc := ⟨.hbm, 110, rfl⟩
abbrev main_v73 : Ref sig .tc := ⟨.hbm, 111, rfl⟩
abbrev main_v74 : Ref sig .tc := ⟨.hbm, 112, rfl⟩
abbrev main_c_16 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  transposes_S64x64_S64x64_1_0 : S64x64.Transposes [1, 0] S64x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S500 : S_.BroadcastsInDim S500 (![] : Fin 0 → Fin S500.rank)
  bcast_S_S_ : S_.BroadcastsInDim S_ (![] : Fin 0 → Fin S_.rank)
  reduceWindows_S500_S500_w500s1p499_0 : S500.ReduceWindows (![500] : Fin 1 → Nat) ![1] ![499] ![0] S500
  h_S_ : 0 < S_.numel
  bcast_S500_S500x1_0 : S500.BroadcastsInDim S500x1 (![0] : Fin 1 → Fin S500x1.rank)
  transposes_S1x64_S64x1_1_0 : S1x64.Transposes [1, 0] S64x1
  bcast_S1_S1x1_1 : S1.BroadcastsInDim S1x1 (![1] : Fin 1 → Fin S1x1.rank)
  bcast_S1x1_S500x1_0_1 : S1x1.BroadcastsInDim S500x1 (![0, 1] : Fin 2 → Fin S500x1.rank)
  shapeCasts_S500x1_S500 : S500x1.ShapeCasts S500
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  scatter_S500_S50000x1_S50000_n_0_0_1_wf : ScatterDims.WF S500 S50000x1 S50000 [] [0] [0] 1
  gather_S50000x64_S500x1_S500x64_1_0_n_n_0_1_164_wf : GatherDims.WF S50000x64 S500x1 S500x64 [1] [0] [] [0] [] 1 ![1, 64]
  dot_S500x64_S64x1_S500x1_1_0_0_1_n_n_wf : DotDims.WF S500x64 S64x1 S500x1 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S500_S50000x1_S50000_n_0_0_1 : ScatterDims S500 S50000x1 S50000 where
  updateWindowDims := []
  insertedWindowDims := [0]
  scatterDimsToOperandDims := [0]
  indexVectorDim := 1
  wf := scatter_S500_S50000x1_S50000_n_0_0_1_wf
def gather_S50000x64_S500x1_S500x64_1_0_n_n_0_1_164 : GatherDims S50000x64 S500x1 S500x64 where
  offsetDims := [1]
  collapsedSliceDims := [0]
  operandBatchingDims := []
  startIndicesBatchingDims := []
  startIndexMap := [0]
  indexVectorDim := 1
  sliceSizes := ![1, 64]
  wf := gather_S50000x64_S500x1_S500x64_1_0_n_n_0_1_164_wf
def dot_S500x64_S64x1_S500x1_1_0_0_1_n_n : DotDims S500x64 S64x1 S500x1 where
  lhsContracting := [1]
  rhsContracting := [0]
  lhsNonContracting := [0]
  rhsNonContracting := [1]
  lhsBatch := []
  rhsBatch := []
  wf := dot_S500x64_S64x1_S500x1_1_0_0_1_n_n_wf

class Facts : Prop extends Facts₀ where

variable [Facts]
-- ==== Proof.KValue.lean ====
/-
  The kernel program's host stages as functions of arrays.

  Around its two tiled regions the program does on the host what the reference does: the edge list's two rows src and
  dst (a negative source wrapped by 50000), for a layer's input the rows at src summed into the rows at dst, and the
  readout of each graph's centre row. Where the reference divides the aggregate by max(count, 1), this program multiplies
  it by the reciprocal 1 / max(count, 1), computed once as a column [50000, 1] and used by both layers; the second
  layer gathers from the first region's (narrow-format) output and widens what it gathered.
-/
import proofs.«416269_j79869211837021_3_alg».proof.KernelIdeal
import proofs.«416269_j79869211837021_3_alg».proof.Proof.Gen.KernelIdeal

noncomputable section

namespace Cert.KernelIdeal.Hand

open Cert.KernelIdeal Cert.KernelIdeal.Gen Idealize.ShloMosaic Idealize.ShloMosaic.TcCoe

variable {F : FTy → Type} [FloatOps F]

/-- Row 0 of the edge list: the edges' sources. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list: the edges' targets. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- Sources `s` as a column of row indices, a negative one wrapped by the number of nodes. -/
def wrapCol (s : (⟨S800000, .i32⟩ : BufTy).Contents (Elt F)) : (⟨S800000x1, .i32⟩ : BufTy).Contents (Elt F) :=
  broadcastInDim S800000x1 ![0] bcast_S800000_S800000x1_0
    (select (cmpi .slt s (broadcastInDim S800000 ![] bcast_S_S800000 (constantI S_ 32 0#32)))
      (addi s (broadcastInDim S800000 ![] bcast_S_S800000 (constantI S_ 32 50000#32))) s)

/-- Targets `d` as a column of row indices. -/
def col (d : (⟨S800000, .i32⟩ : BufTy).Contents (Elt F)) : (⟨S800000x1, .i32⟩ : BufTy).Contents (Elt F) :=
  broadcastInDim S800000x1 ![0] bcast_S800000_S800000x1_0 d

/-- The reciprocal of each node's number of incoming edges (at least one), as a column. -/
def invDegOf (d : (⟨S800000, .i32⟩ : BufTy).Contents (Elt F)) : (⟨S50000x1, .f32⟩ : BufTy).Contents (Elt F) :=
  shapeCast S50000x1
    (Host.divf (broadcastInDim S50000 ![] bcast_S_S50000 (constant S_ .f32 0x3F800000#32))
      (maximumf
        (Host.scatterAdd scatter_S50000_S800000x1_S800000_n_0_0_1
          (broadcastInDim S50000 ![] bcast_S_S50000 (constant S_ .f32 0x00000000#32)) (col (F := F) d)
          (broadcastInDim S800000 ![] bcast_S_S800000 (constant S_ .f32 0x3F800000#32)))
        (broadcastInDim S50000 ![] bcast_S_S50000 (constant S_ .f32 0x3F800000#32))))
    shapeCasts_S50000_S50000x1

/-- The edge messages `msg` summed into the targets' rows, each row then scaled by its node's reciprocal count. -/
def meanOf (msg : (⟨S800000x64, .f32⟩ : BufTy).Contents (Elt F)) (d : (⟨S800000, .i32⟩ : BufTy).Contents (Elt F))
    (inv : (⟨S50000x1, .f32⟩ : BufTy).Contents (Elt F)) : (⟨S50000x64, .f32⟩ : BufTy).Contents (Elt F) :=
  mulf
    (Host.scatterAdd scatter_S50000x64_S800000x1_S800000x64_1_0_0_1
      (broadcastInDim S50000x64 ![] bcast_S_S50000x64 (constant S_ .f32 0x00000000#32)) (col (F := F) d) msg)
    (broadcastInDim S50000x64 ![0, 1] bcast_S50000x1_S50000x64_0_1 inv)

/-- The first layer's neighbour mean, from the input features. -/
def mean1Of (x : (⟨S50000x64, .f32⟩ : BufTy).Contents (Elt F)) (s d : (⟨S800000, .i32⟩ : BufTy).Contents (Elt F))
    (inv : (⟨S50000x1, .f32⟩ : BufTy).Contents (Elt F)) : (⟨S50000x64, .f32⟩ : BufTy).Contents (Elt F) :=
  meanOf (Host.gather gather_S50000x64_S800000x1_S800000x64_1_0_n_n_0_1_164 x (wrapCol (F := F) s)) d inv

/-- The second layer's neighbour mean, from the first layer's output. -/
def mean2Of (h : (⟨S50000x64, .bf16⟩ : BufTy).Contents (Elt F)) (s d : (⟨S800000, .i32⟩ : BufTy).Contents (Elt F))
    (inv : (⟨S50000x1, .f32⟩ : BufTy).Contents (Elt F)) : (⟨S50000x64, .f32⟩ : BufTy).Contents (Elt F) :=
  meanOf (extf .f32 (Host.gather gather_S50000x64_S800000x1_S800000x64_1_0_n_n_0_1_164 h (wrapCol (F := F) s)) bitsLt_bf16_f32) d inv

/-- A weight matrix transposed. -/
def tr (w : (⟨S64x64, .f32⟩ : BufTy).Contents (Elt F)) : (⟨S64x64, .f32⟩ : BufTy).Contents (Elt F) :=
  transpose S64x64 [1, 0] w transposes_S64x64_S64x64_1_0

/-- How many nodes each graph has: ones summed at the nodes' graph ids (an id clipped below at 0, a negative one wrapped). -/
def counts (batch : (⟨S50000, .i32⟩ : BufTy).Contents (Elt F)) : (⟨S500, .i32⟩ : BufTy).Contents (Elt F) :=
  Host.scatter scatter_S500_S50000x1_S50000_n_0_0_1 IntOp.addi
    (broadcastInDim S500 ![] bcast_S_S500 (constantI S_ 32 0#32))
    (broadcastInDim S50000x1 ![0] bcast_S50000_S50000x1_0
      (select
        (cmpi .slt (maxsi (broadcastInDim S50000 ![] bcast_S_S50000 (id (constantI S_ 32 0#32))) batch)
          (broadcastInDim S50000 ![] bcast_S_S50000 (constantI S_ 32 0#32)))
        (addi (maxsi (broadcastInDim S50000 ![] bcast_S_S50000 (id (constantI S_ 32 0#32))) batch)
          (broadcastInDim S50000 ![] bcast_S_S50000 (constantI S_ 32 500#32)))
        (maxsi (broadcastInDim S50000 ![] bcast_S_S50000 (id (constantI S_ 32 0#32))) batch)))
    (broadcastInDim S50000 ![] bcast_S_S50000 (constantI S_ 32 1#32))

/-- Each graph's centre node as a global row: the running count of the graphs before it, plus the centre's position. -/
def centerRow (batch : (⟨S50000, .i32⟩ : BufTy).Contents (Elt F)) (cpos : (⟨S500, .i32⟩ : BufTy).Contents (Elt F)) :
    (⟨S500, .i32⟩ : BufTy).Contents (Elt F) :=
  addi
    (subi
      (Host.reduceWindow IntOp.addi ![500] ![1] ![499] ![0] (counts (F := F) batch)
        (broadcastInDim S_ ![] bcast_S_S_ (constantI S_ 32 0#32)) reduceWindows_S500_S500_w500s1p499_0 h_S_)
      (counts (F := F) batch))
    cpos

/-- The centre rows as a column of row indices, a negative one wrapped by the number of nodes. -/
def centerIdx (batch : (⟨S50000, .i32⟩ : BufTy).Contents (Elt F)) (cpos : (⟨S500, .i32⟩ : BufTy).Contents (Elt F)) :
    (⟨S500x1, .i32⟩ : BufTy).Contents (Elt F) :=
  broadcastInDim S500x1 ![0] bcast_S500_S500x1_0
    (select (cmpi .slt (centerRow (F := F) batch cpos) (broadcastInDim S500 ![] bcast_S_S500 (constantI S_ 32 0#32)))
      (addi (centerRow (F := F) batch cpos) (broadcastInDim S500 ![] bcast_S_S500 (constantI S_ 32 50000#32)))
      (centerRow (F := F) batch cpos))

/-- The readout: the centre rows of `h`, widened, mapped by `wlin`ᵀ, plus the bias. -/
def readout (h : (⟨S50000x64, .bf16⟩ : BufTy).Contents (Elt F)) (batch : (⟨S50000, .i32⟩ : BufTy).Contents (Elt F))
    (cpos : (⟨S500, .i32⟩ : BufTy).Contents (Elt F)) (wlin : (⟨S1x64, .f32⟩ : BufTy).Contents (Elt F))
    (blin : (⟨S1, .f32⟩ : BufTy).Contents (Elt F)) : (⟨S500, .f32⟩ : BufTy).Contents (Elt F) :=
  shapeCast S500
    (addf
      (Host.dotGeneral dot_S500x64_S64x1_S500x1_1_0_0_1_n_n none
        (extf .f32 (Host.gather gather_S50000x64_S500x1_S500x64_1_0_n_n_0_1_164 h (centerIdx (F := F) batch cpos)) bitsLt_bf16_f32)
        (transpose S64x1 [1, 0] wlin transposes_S1x64_S64x1_1_0))
      (broadcastInDim S500x1 ![0, 1] bcast_S1x1_S500x1_0_1 (broadcastInDim S1x1 ![1] bcast_S1_S1x1_1 blin)))
    shapeCasts_S500x1_S500

end Cert.KernelIdeal.Hand

end
-- ==== Proof.KStages.lean ====
/-
  The kernel program's three host stretches read back: from any buffer contents `V`, what each stretch leaves in the
  buffers the next region or stretch reads, as the functions of Proof/KValue.lean of what `V` holds; and the buffers a
  stretch does not write keep their contents.
-/
import proofs.«416269_j79869211837021_3_alg».proof.Proof.Gen.KernelIdeal.Launch
import proofs.«416269_j79869211837021_3_alg».proof.Proof.KValue
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.ShloMosaic.StableHlo

variable {F : FTy → Type} [FloatOps F] (V : Valuation τ sig (Elt F))

/-! ## Before the first region -/

set_option maxHeartbeats 2000000 in
/-- The first region's mean operand. -/
theorem stage0_v24 : after hostOps0 V (Proc.devRef .tc main_v24)
    = mean1Of (V (Proc.devRef .tc main_arg0)) (src (V (Proc.devRef .tc main_arg1))) (dst (V (Proc.devRef .tc main_arg1))) (invDegOf (dst (V (Proc.devRef .tc main_arg1)))) := by
  after_results_simp
  rfl

set_option maxHeartbeats 2000000 in
theorem stage0_v25 : after hostOps0 V (Proc.devRef .tc main_v25) = tr (V (Proc.devRef .tc main_arg4)) := by
  after_results_simp
  rfl

set_option maxHeartbeats 2000000 in
theorem stage0_v26 : after hostOps0 V (Proc.devRef .tc main_v26) = tr (V (Proc.devRef .tc main_arg6)) := by
  after_results_simp
  rfl

set_option maxHeartbeats 2000000 in
/-- The edges' sources, targets and the reciprocal counts stay where the second stretch reads them. -/
theorem stage0_v1 : after hostOps0 V (Proc.devRef .tc main_v1) = src (V (Proc.devRef .tc main_arg1)) := by
  after_results_simp
  rfl

set_option maxHeartbeats 2000000 in
theorem stage0_v3 : after hostOps0 V (Proc.devRef .tc main_v3) = dst (V (Proc.devRef .tc main_arg1)) := by
  after_results_simp
  rfl

set_option maxHeartbeats 2000000 in
theorem stage0_v12 : after hostOps0 V (Proc.devRef .tc main_v12) = invDegOf (dst (V (Proc.devRef .tc main_arg1))) := by
  after_results_simp
  rfl

set_option maxHeartbeats 2000000 in
section
theorem stage0_keep_main_arg0 : after hostOps0 V (Proc.devRef .tc main_arg0) = V (Proc.devRef .tc main_arg0) := by after_results_simp
theorem stage0_keep_main_arg2 : after hostOps0 V (Proc.devRef .tc main_arg2) = V (Proc.devRef .tc main_arg2) := by after_results_simp
theorem stage0_keep_main_arg3 : after hostOps0 V (Proc.devRef .tc main_arg3) = V (Proc.devRef .tc main_arg3) := by after_results_simp
theorem stage0_keep_main_arg5 : after hostOps0 V (Proc.devRef .tc main_arg5) = V (Proc.devRef .tc main_arg5) := by after_results_simp
theorem stage0_keep_main_arg7 : after hostOps0 V (Proc.devRef .tc main_arg7) = V (Proc.devRef .tc main_arg7) := by after_results_simp
theorem stage0_keep_main_arg8 : after hostOps0 V (Proc.devRef .tc main_arg8) = V (Proc.devRef .tc main_arg8) := by after_results_simp
theorem stage0_keep_main_arg9 : after hostOps0 V (Proc.devRef .tc main_arg9) = V (Proc.devRef .tc main_arg9) := by after_results_simp
theorem stage0_keep_main_arg10 : after hostOps0 V (Proc.devRef .tc main_arg10) = V (Proc.devRef .tc main_arg10) := by after_results_simp
theorem stage0_keep_main_arg11 : after hostOps0 V (Proc.devRef .tc main_arg11) = V (Proc.devRef .tc main_arg11) := by after_results_simp
end

/-! ## Between the regions -/

set_option maxHeartbeats 2000000 in
/-- The second region's mean operand. -/
theorem stage1_v40 : after hostOps1 V (Proc.devRef .tc main_v40)
    = mean2Of (V (Proc.devRef .tc main_v27)) (V (Proc.devRef .tc main_v1)) (V (Proc.devRef .tc main_v3)) (V (Proc.devRef .tc main_v12)) := by
  after_results_simp
  rfl

set_option maxHeartbeats 2000000 in
theorem stage1_v41 : after hostOps1 V (Proc.devRef .tc main_v41) = tr (V (Proc.devRef .tc main_arg7)) := by
  after_results_simp
  rfl

set_option maxHeartbeats 2000000 in
theorem stage1_v42 : after hostOps1 V (Proc.devRef .tc main_v42) = tr (V (Proc.devRef .tc main_arg9)) := by
  after_results_simp
  rfl

set_option maxHeartbeats 2000000 in
section
theorem stage1_keep_main_v27 : after hostOps1 V (Proc.devRef .tc main_v27) = V (Proc.devRef .tc main_v27) := by after_results_simp
theorem stage1_keep_main_arg2 : after hostOps1 V (Proc.devRef .tc main_arg2) = V (Proc.devRef .tc main_arg2) := by after_results_simp
theorem stage1_keep_main_arg3 : after hostOps1 V (Proc.devRef .tc main_arg3) = V (Proc.devRef .tc main_arg3) := by after_results_simp
theorem stage1_keep_main_arg8 : after hostOps1 V (Proc.devRef .tc main_arg8) = V (Proc.devRef .tc main_arg8) := by after_results_simp
theorem stage1_keep_main_arg10 : after hostOps1 V (Proc.devRef .tc main_arg10) = V (Proc.devRef .tc main_arg10) := by after_results_simp
theorem stage1_keep_main_arg11 : after hostOps1 V (Proc.devRef .tc main_arg11) = V (Proc.devRef .tc main_arg11) := by after_results_simp
end

/-! ## After the second region -/

/-! ### The closing stretches, one at a time -/

section Tail
attribute [local irreducible] Host.reduceWindow Host.scatter Host.gather

set_option maxHeartbeats 1000000 in
section
theorem t0_v44 : after hostOps2 V (Proc.devRef .tc main_v44) = broadcastInDim S500 ![] bcast_S_S500 (constantI S_ 32 0#32) := by
  after_results_simp
theorem t0_c9 : after hostOps2 V (Proc.devRef .tc main_c_9) = constantI S_ 32 0#32 := by
  after_results_simp
theorem t0_keep_main_arg2 : after hostOps2 V (Proc.devRef .tc main_arg2) = V (Proc.devRef .tc main_arg2) := by after_results_simp
theorem t0_keep_main_arg3 : after hostOps2 V (Proc.devRef .tc main_arg3) = V (Proc.devRef .tc main_arg3) := by after_results_simp
theorem t0_keep_main_v43 : after hostOps2 V (Proc.devRef .tc main_v43) = V (Proc.devRef .tc main_v43) := by after_results_simp
theorem t0_keep_main_arg10 : after hostOps2 V (Proc.devRef .tc main_arg10) = V (Proc.devRef .tc main_arg10) := by after_results_simp
theorem t0_keep_main_arg11 : after hostOps2 V (Proc.devRef .tc main_arg11) = V (Proc.devRef .tc main_arg11) := by after_results_simp

/-- The graph ids clipped below at zero. -/
theorem t1_v45 : after hostOps2_1 V (Proc.devRef .tc main_v45)
    = maxsi (broadcastInDim S50000 ![] bcast_S_S50000 (id (V (Proc.devRef .tc main_c_9)))) (V (Proc.devRef .tc main_arg2)) := by
  after_results_simp
  rfl
theorem t1_keep_main_v44 : after hostOps2_1 V (Proc.devRef .tc main_v44) = V (Proc.devRef .tc main_v44) := by after_results_simp
theorem t1_keep_main_arg3 : after hostOps2_1 V (Proc.devRef .tc main_arg3) = V (Proc.devRef .tc main_arg3) := by after_results_simp
theorem t1_keep_main_v43 : after hostOps2_1 V (Proc.devRef .tc main_v43) = V (Proc.devRef .tc main_v43) := by after_results_simp
theorem t1_keep_main_arg10 : after hostOps2_1 V (Proc.devRef .tc main_arg10) = V (Proc.devRef .tc main_arg10) := by after_results_simp
theorem t1_keep_main_arg11 : after hostOps2_1 V (Proc.devRef .tc main_arg11) = V (Proc.devRef .tc main_arg11) := by after_results_simp

/-- The graphs' node counts. -/
theorem t2_v53 : after hostOps2_2 V (Proc.devRef .tc main_v53)
    = Host.scatter scatter_S500_S50000x1_S50000_n_0_0_1 IntOp.addi (V (Proc.devRef .tc main_v44))
        (broadcastInDim S50000x1 ![0] bcast_S50000_S50000x1_0
          (select (cmpi .slt (V (Proc.devRef .tc main_v45)) (broadcastInDim S50000 ![] bcast_S_S50000 (constantI S_ 32 0#32)))
            (addi (V (Proc.devRef .tc main_v45)) (broadcastInDim S50000 ![] bcast_S_S50000 (constantI S_ 32 500#32))) (V (Proc.devRef .tc main_v45))))
        (broadcastInDim S50000 ![] bcast_S_S50000 (constantI S_ 32 1#32)) := by
  after_results_simp
theorem t2_keep_main_arg3 : after hostOps2_2 V (Proc.devRef .tc main_arg3) = V (Proc.devRef .tc main_arg3) := by after_results_simp
theorem t2_keep_main_v43 : after hostOps2_2 V (Proc.devRef .tc main_v43) = V (Proc.devRef .tc main_v43) := by after_results_simp
theorem t2_keep_main_arg10 : after hostOps2_2 V (Proc.devRef .tc main_arg10) = V (Proc.devRef .tc main_arg10) := by after_results_simp
theorem t2_keep_main_arg11 : after hostOps2_2 V (Proc.devRef .tc main_arg11) = V (Proc.devRef .tc main_arg11) := by after_results_simp

/-- The counts' running sum. -/
theorem t3_v54 : after hostOps2_3 V (Proc.devRef .tc main_v54)
    = Host.reduceWindow IntOp.addi ![500] ![1] ![499] ![0] (V (Proc.devRef .tc main_v53))
        (broadcastInDim S_ ![] bcast_S_S_ (constantI S_ 32 0#32)) reduceWindows_S500_S500_w500s1p499_0 h_S_ := by
  after_results_simp
  rfl
theorem t3_keep_main_v53 : after hostOps2_3 V (Proc.devRef .tc main_v53) = V (Proc.devRef .tc main_v53) := by after_results_simp
theorem t3_keep_main_arg3 : after hostOps2_3 V (Proc.devRef .tc main_arg3) = V (Proc.devRef .tc main_arg3) := by after_results_simp
theorem t3_keep_main_v43 : after hostOps2_3 V (Proc.devRef .tc main_v43) = V (Proc.devRef .tc main_v43) := by after_results_simp
theorem t3_keep_main_arg10 : after hostOps2_3 V (Proc.devRef .tc main_arg10) = V (Proc.devRef .tc main_arg10) := by after_results_simp
theorem t3_keep_main_arg11 : after hostOps2_3 V (Proc.devRef .tc main_arg11) = V (Proc.devRef .tc main_arg11) := by after_results_simp

/-- The readout from the running sum, the counts and the centre positions. -/
theorem t4_v70 : after hostOps2_4 V (Proc.devRef .tc main_v70)
    = shapeCast S500
        (addf
          (Host.dotGeneral dot_S500x64_S64x1_S500x1_1_0_0_1_n_n none
            (extf .f32
              (Host.gather gather_S50000x64_S500x1_S500x64_1_0_n_n_0_1_164 (V (Proc.devRef .tc main_v43))
                (broadcastInDim S500x1 ![0] bcast_S500_S500x1_0
                  (select
                    (cmpi .slt (addi (subi (V (Proc.devRef .tc main_v54)) (V (Proc.devRef .tc main_v53))) (V (Proc.devRef .tc main_arg3)))
                      (broadcastInDim S500 ![] bcast_S_S500 (constantI S_ 32 0#32)))
                    (addi (addi (subi (V (Proc.devRef .tc main_v54)) (V (Proc.devRef .tc main_v53))) (V (Proc.devRef .tc main_arg3)))
                      (broadcastInDim S500 ![] bcast_S_S500 (constantI S_ 32 50000#32)))
                    (addi (subi (V (Proc.devRef .tc main_v54)) (V (Proc.devRef .tc main_v53))) (V (Proc.devRef .tc main_arg3))))))
              bitsLt_bf16_f32)
            (transpose S64x1 [1, 0] (V (Proc.devRef .tc main_arg10)) transposes_S1x64_S64x1_1_0))
          (broadcastInDim S500x1 ![0, 1] bcast_S1x1_S500x1_0_1 (broadcastInDim S1x1 ![1] bcast_S1_S1x1_1 (V (Proc.devRef .tc main_arg11)))))
        shapeCasts_S500x1_S500 := by
  after_results_simp
  rfl
end

set_option maxHeartbeats 1000000 in
/-- The result buffer after the five closing stretches. -/
theorem tail_v70 : after hostOps2_4 (after hostOps2_3 (after hostOps2_2 (after hostOps2_1 (after hostOps2 V)))) (Proc.devRef .tc main_v70)
    = readout (V (Proc.devRef .tc main_v43)) (V (Proc.devRef .tc main_arg2)) (V (Proc.devRef .tc main_arg3)) (V (Proc.devRef .tc main_arg10)) (V (Proc.devRef .tc main_arg11)) := by
  rw [t4_v70, t3_v54, t3_keep_main_v53, t3_keep_main_arg3, t3_keep_main_v43, t3_keep_main_arg10, t3_keep_main_arg11,
    t2_v53, t2_keep_main_arg3, t2_keep_main_v43, t2_keep_main_arg10, t2_keep_main_arg11,
    t1_v45, t1_keep_main_v44, t1_keep_main_arg3, t1_keep_main_v43, t1_keep_main_arg10, t1_keep_main_arg11,
    t0_v44, t0_c9, t0_keep_main_arg2, t0_keep_main_arg3, t0_keep_main_v43, t0_keep_main_arg10, t0_keep_main_arg11]
  rfl

end Tail

end Cert.KernelIdeal.Hand

end
-- ==== Proof.Spec.lean ====
/-
  One layer's dense part as ONE function of whole arrays, index by index, on the extended reals.

  For node features `a` (the neighbour mean) and `x` (the node's own features), both [50000, 64], two weight
  matrices [64, 64] given already transposed (`wlT (k, j) = Wl (j, k)`), and a bias [64]:

    dense a x wlT bl wrT (r, j) = max ( (∑ k, a (r, k) · wlT (k, j)) + (∑ k, x (r, k) · wrT (k, j)) + bl j ) 0.

  Row r of the result depends on row r of `a` and of `x` only, so any tiling of the rows computes it block by block.
-/
import Idealize.ShloMosaic.PureOps.Ideal
import Idealize.ShloMosaic.Lib.ValueIdx

noncomputable section

namespace Cert.Spec

open Idealize.ShloMosaic Idealize.ShloMosaic.ValueIdx

/-- Node features, [50000, 64]. -/
abbrev SN : Shape := ⟨2, ![50000, 64]⟩
/-- A weight matrix, [64, 64]. -/
abbrev SW : Shape := ⟨2, ![64, 64]⟩
/-- A bias, [64]. -/
abbrev SB : Shape := ⟨1, ![64]⟩

/-- The dense part at row `r`, column `j`. -/
def denseAt (a x : SN.Idx → EReal) (wlT : SW.Idx → EReal) (bl : SB.Idx → EReal) (wrT : SW.Idx → EReal)
    (r : Fin 50000) (j : Fin 64) : EReal :=
  max (((∑ k : Fin 64, a (ix2 r k) * wlT (ix2 k j)) + ∑ k : Fin 64, x (ix2 r k) * wrT (ix2 k j)) + bl (ix1 j)) 0

/-- The dense part of one layer: rectified `a · wlT + x · wrT + bl`. -/
def dense (a x : SN.Idx → EReal) (wlT : SW.Idx → EReal) (bl : SB.Idx → EReal) (wrT : SW.Idx → EReal) : SN.Idx → EReal :=
  fun i => denseAt a x wlT bl wrT (i 0) (i 1)

theorem dense_apply (a x : SN.Idx → EReal) (wlT : SW.Idx → EReal) (bl : SB.Idx → EReal) (wrT : SW.Idx → EReal)
    (r : Fin 50000) (j : Fin 64) : dense a x wlT bl wrT (ix2 r j) = denseAt a x wlT bl wrT r j := rfl

end Cert.Spec

end
-- ==== Proof.KOut.lean ====
/-
  The kernel program's result as one function of its twelve arguments: each layer's output is the dense part
  (`Cert.Spec.dense`) of that layer's neighbour mean and input, with the weights transposed; the readout reads the
  second layer's output.
-/
import proofs.«416269_j79869211837021_3_alg».proof.Proof.KValue
import proofs.«416269_j79869211837021_3_alg».proof.Proof.Spec

noncomputable section

namespace Cert.KernelIdeal.Hand

open Cert.KernelIdeal Cert.KernelIdeal.Gen Idealize.ShloMosaic Idealize.ShloMosaic.TcCoe

/-- The first layer's output: the dense part of the first neighbour mean and the input features. -/
def h1Of (x : (⟨S50000x64, .f32⟩ : BufTy).Contents (Elt Ideal)) (e : (⟨S2x800000, .i32⟩ : BufTy).Contents (Elt Ideal))
    (wl1 : (⟨S64x64, .f32⟩ : BufTy).Contents (Elt Ideal)) (bl1 : (⟨S64, .f32⟩ : BufTy).Contents (Elt Ideal))
    (wr1 : (⟨S64x64, .f32⟩ : BufTy).Contents (Elt Ideal)) : (⟨S50000x64, .bf16⟩ : BufTy).Contents (Elt Ideal) :=
  Cert.Spec.dense (mean1Of (F := Ideal) x (src (F := Ideal) e) (dst (F := Ideal) e) (invDegOf (F := Ideal) (dst (F := Ideal) e))) x
    (tr (F := Ideal) wl1) bl1 (tr (F := Ideal) wr1)

/-- The second layer's output: the dense part of the second neighbour mean and the first layer's output. -/
def h2Of (h1 : (⟨S50000x64, .bf16⟩ : BufTy).Contents (Elt Ideal)) (e : (⟨S2x800000, .i32⟩ : BufTy).Contents (Elt Ideal))
    (wl2 : (⟨S64x64, .f32⟩ : BufTy).Contents (Elt Ideal)) (bl2 : (⟨S64, .f32⟩ : BufTy).Contents (Elt Ideal))
    (wr2 : (⟨S64x64, .f32⟩ : BufTy).Contents (Elt Ideal)) : (⟨S50000x64, .bf16⟩ : BufTy).Contents (Elt Ideal) :=
  Cert.Spec.dense (mean2Of (F := Ideal) h1 (src (F := Ideal) e) (dst (F := Ideal) e) (invDegOf (F := Ideal) (dst (F := Ideal) e))) h1
    (tr (F := Ideal) wl2) bl2 (tr (F := Ideal) wr2)

/-- The kernel program's result. -/
def kout (x : (⟨S50000x64, .f32⟩ : BufTy).Contents (Elt Ideal)) (e : (⟨S2x800000, .i32⟩ : BufTy).Contents (Elt Ideal))
    (batch : (⟨S50000, .i32⟩ : BufTy).Contents (Elt Ideal)) (cpos : (⟨S500, .i32⟩ : BufTy).Contents (Elt Ideal))
    (wl1 : (⟨S64x64, .f32⟩ : BufTy).Contents (Elt Ideal)) (bl1 : (⟨S64, .f32⟩ : BufTy).Contents (Elt Ideal))
    (wr1 : (⟨S64x64, .f32⟩ : BufTy).Contents (Elt Ideal)) (wl2 : (⟨S64x64, .f32⟩ : BufTy).Contents (Elt Ideal))
    (bl2 : (⟨S64, .f32⟩ : BufTy).Contents (Elt Ideal)) (wr2 : (⟨S64x64, .f32⟩ : BufTy).Contents (Elt Ideal))
    (wlin : (⟨S1x64, .f32⟩ : BufTy).Contents (Elt Ideal)) (blin : (⟨S1, .f32⟩ : BufTy).Contents (Elt Ideal)) :
    (⟨S500, .f32⟩ : BufTy).Contents (Elt Ideal) :=
  readout (F := Ideal) (h2Of (h1Of x e wl1 bl1 wr1) e wl2 bl2 wr2) batch cpos wlin blin

end Cert.KernelIdeal.Hand

end
-- ==== Proof.LibPlainDot.lean ====
/-
  The plain matrix product read at an index.

  A dot record with dimension numbers `<[1], [0], [0], [1]>` and no batch axes (an `M × K` by `K × N` product) is the
  library's `DotDims.plain M K N`; at the ideal values both the kernel's matrix unit product into a zero accumulator
  and the host's `dot_general` of such a record, read at the output index `(a, b)`, are the sum over the contracted
  coordinate `c` of `A (a, c) * B (c, b)` on the extended reals. Stated for any record that EQUALS the plain one, so
  that a program's own record is passed with `rfl`.
-/
import Idealize.ShloMosaic.PureOps.Ideal
import Idealize.ShloMosaic.PureOps.Ideal.Laws
import Idealize.ShloMosaic.Lib.ValueIdx
import Idealize.ShloMosaic.Lib.StackMember

noncomputable section

namespace Cert.LibPlainDot

open Idealize.ShloMosaic Idealize.ShloMosaic.ValueIdx

variable {m k n : Nat} {φ₁ φ₂ : FTy}

/-- The host's product of a plain record, at `(a, b)`: `∑ c, A (a, c) * B (c, b)`. -/
theorem dotGeneral_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    Host.dotGeneral D prec A B (ix2 a b) = ∑ c : Fin k, A (ix2 a c) * B (ix2 c b) := by
  subst hD
  exact StackMember.dotGeneral_plain_apply prec A B a b

/-- The kernel's product of a plain record into the zero accumulator, at `(a, b)`: the same sum. -/
theorem matmul_zero_apply (D : DotDims ⟨2, ![m, k]⟩ ⟨2, ![k, n]⟩ ⟨2, ![m, n]⟩) (hD : D = DotDims.plain m k n)
    (prec : Option ContractPrecision) (A : FVec Ideal ⟨2, ![m, k]⟩ φ₁) (B : FVec Ideal ⟨2, ![k, n]⟩ φ₂) (a : Fin m) (b : Fin n) :
    matmul D prec A B (constant (F := Ideal) ⟨2, ![m, n]⟩ .f32 0x00000000#32) (ix2 a b) = ∑ c : Fin k, A (ix2 a c) * B (ix2 c b) := by
  subst hD
  have h := StackMember.dotGeneral_plain_apply (m := m) (n := n) prec A B a b
  rw [← h]
  show FloatOps.matmul _ prec A B _ (ix2 a b) = FloatOps.dotGeneral _ prec _ A B (ix2 a b)
  rw [Ideal.matmul_constant_zero_apply, Ideal.dotGeneral_apply]

end Cert.LibPlainDot

end
-- ==== Proof.Region.lean ====
/-
  What each of the two tiled regions leaves in its output array: the dense part of a layer (`Cert.Spec.dense`) of the
  arrays the region finds at its entry. The grid has five points; point t works on rows 10000 t … 10000 t + 9999 of the
  two feature arrays and on the whole weight matrices and bias, and writes the same rows of the output.
-/
import proofs.«416269_j79869211837021_3_alg».proof.Proof.Gen.KernelIdeal.Frame
import proofs.«416269_j79869211837021_3_alg».proof.Proof.Spec
import proofs.«416269_j79869211837021_3_alg».proof.Proof.LibPlainDot
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Hand

open Cert.KernelIdeal Cert.KernelIdeal.Gen

variable (V : (c : Dev nD) → (b : Ref sig .tc) → Buf (Elt Ideal) ((c : Thread nD τ).loc b))

/-! ## Region 0 -/

/-- The body's stored value at row p, column q of a block: the two products' entries added, the bias added, rectified. -/
theorem pay0_apply (x0 x1 : FVec Ideal S10000x64 .f32) (x2 x4 : FVec Ideal S64x64 .f32) (x3 : FVec Ideal S64 .f32)
    (p : Fin 10000) (q : Fin 64) :
    k0_pay1 (F := Ideal) x0 x1 x2 x4 x3 (ix2 p q)
      = max (((∑ k : Fin 64, x0 (ix2 p k) * x2 (ix2 k q)) + ∑ k : Fin 64, x1 (ix2 p k) * x4 (ix2 k q)) + x3 (ix1 q)) 0 := by
  unfold k0_pay1
  simp only [truncf_apply, maximumf_apply, addf_apply, broadcast_apply, shapeCast_self]
  rw [Cert.LibPlainDot.matmul_zero_apply dot_S10000x64_S64x64_S10000x64_1_0_0_1_n_n rfl,
    Cert.LibPlainDot.matmul_zero_apply dot_S10000x64_S64x64_S10000x64_1_0_0_1_n_n rfl,
    broadcastTo_1b_ab_apply, shapeCast_a_1a_apply, Ideal.ofBits_def, Ideal.ofBits_zero_f32]
  rfl

/-- With each entry of the blocks read from whole arrays (row r of the feature arrays, the weight matrices and the bias
    as they are), the body's stored value is the dense part at row r. -/
theorem block_dense (x0 x1 : FVec Ideal S10000x64 .f32) (x2 x4 : FVec Ideal S64x64 .f32) (x3 : FVec Ideal S64 .f32)
    (a x : Cert.Spec.SN.Idx → EReal) (wlT : Cert.Spec.SW.Idx → EReal) (bl : Cert.Spec.SB.Idx → EReal)
    (wrT : Cert.Spec.SW.Idx → EReal) (p : Fin 10000) (q : Fin 64) (r : Fin 50000)
    (h0 : ∀ k : Fin 64, x0 (ix2 p k) = a (ix2 r k)) (h1 : ∀ k : Fin 64, x1 (ix2 p k) = x (ix2 r k))
    (h2 : ∀ k : Fin 64, x2 (ix2 k q) = wlT (ix2 k q)) (h4 : ∀ k : Fin 64, x4 (ix2 k q) = wrT (ix2 k q))
    (h3 : x3 (ix1 q) = bl (ix1 q)) :
    k0_pay1 (F := Ideal) x0 x1 x2 x4 x3 (ix2 p q) = Cert.Spec.dense a x wlT bl wrT (ix2 r q) := by
  rw [pay0_apply, Cert.Spec.dense_apply]
  unfold Cert.Spec.denseAt
  simp only [h0, h1, h2, h4, h3]

theorem hz2 : (![0, 0] : Fin 2 → Nat) = fun _ => 0 := funext fun a => by fin_cases a <;> rfl
theorem hz1 : (![0] : Fin 1 → Nat) = fun _ => 0 := funext fun a => by fin_cases a <;> rfl

/-- The windows' block indices over the five points: the row blocks sit at block row t, everything else at block 0. -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- Window 0's block at point t is rows 10000 t … 10000 t + 9999 of its array. -/
theorem iblk0_0_apply (c : Dev nD) (t : Fin cfg0.N) (y : S10000x64.Idx) (k : S50000x64.Idx)
    (hk0 : (k 0).val = 10000 * t.val + (y 0).val) (hk1 : (k 1).val = (y 1).val) :
    (iblk0 V c 0 t : Vec Ideal S10000x64 .f32) y = (V c main_v24 : S50000x64.Idx → Elt Ideal .f32) k := by
  obtain ⟨e0, e1, -⟩ := idx_facts0 t
  unfold iblk0
  rw [View.read_apply]
  show V c main_v24 _ = V c main_v24 _
  congr 1
  funext a
  apply Fin.ext
  match a with
  | ⟨0, _⟩ => show win0_0.index t 0 * 10000 + 1 * (y 0).val = (k 0).val; rw [e0, hk0]; omega
  | ⟨1, _⟩ => show win0_0.index t 1 * 64 + 1 * (y 1).val = (k 1).val; rw [e1, hk1]; omega

/-- Window 1's block at point t is the same rows of its array. -/
theorem iblk0_1_apply (c : Dev nD) (t : Fin cfg0.N) (y : S10000x64.Idx) (k : S50000x64.Idx)
    (hk0 : (k 0).val = 10000 * t.val + (y 0).val) (hk1 : (k 1).val = (y 1).val) :
    (iblk0 V c 1 t : Vec Ideal S10000x64 .f32) y = (V c main_arg0 : S50000x64.Idx → Elt Ideal .f32) k := by
  obtain ⟨-, -, e0, e1, -⟩ := idx_facts0 t
  unfold iblk0
  rw [View.read_apply]
  show V c main_arg0 _ = V c main_arg0 _
  congr 1
  funext a
  apply Fin.ext
  match a with
  | ⟨0, _⟩ => show win0_1.index t 0 * 10000 + 1 * (y 0).val = (k 0).val; rw [e0, hk0]; omega
  | ⟨1, _⟩ => show win0_1.index t 1 * 64 + 1 * (y 1).val = (k 1).val; rw [e1, hk1]; omega

/-- Window 2's block is its whole array. -/
theorem iblk0_2_apply (c : Dev nD) (t : Fin cfg0.N) (y : S64x64.Idx) :
    (iblk0 V c 2 t : Vec Ideal S64x64 .f32) y = (V c main_v25 : S64x64.Idx → Elt Ideal .f32) y := by
  obtain ⟨-, -, -, -, e0, e1, -⟩ := idx_facts0 t
  unfold iblk0
  rw [View.read_apply]
  show V c main_v25 _ = V c main_v25 _
  congr 1
  funext a
  apply Fin.ext
  match a with
  | ⟨0, _⟩ => show win0_2.index t 0 * 64 + 1 * (y 0).val = (y 0).val; rw [e0]; omega
  | ⟨1, _⟩ => show win0_2.index t 1 * 64 + 1 * (y 1).val = (y 1).val; rw [e1]; omega

/-- Window 3's block is its whole array. -/
theorem iblk0_3_apply (c : Dev nD) (t : Fin cfg0.N) (y : S64.Idx) :
    (iblk0 V c 3 t : Vec Ideal S64 .f32) y = (V c main_arg5 : S64.Idx → Elt Ideal .f32) y := by
  obtain ⟨-, -, -, -, -, -, e0, -⟩ := idx_facts0 t
  unfold iblk0
  rw [View.read_apply]
  show V c main_arg5 _ = V c main_arg5 _
  congr 1
  funext a
  apply Fin.ext
  match a with
  | ⟨0, _⟩ => show win0_3.index t 0 * 64 + 1 * (y 0).val = (y 0).val; rw [e0]; omega

/-- Window 4's block is its whole array. -/
theorem iblk0_4_apply (c : Dev nD) (t : Fin cfg0.N) (y : S64x64.Idx) :
    (iblk0 V c 4 t : Vec Ideal S64x64 .f32) y = (V c main_v26 : S64x64.Idx → Elt Ideal .f32) y := by
  obtain ⟨-, -, -, -, -, -, -, e0, e1, -⟩ := idx_facts0 t
  unfold iblk0
  rw [View.read_apply]
  show V c main_v26 _ = V c main_v26 _
  congr 1
  funext a
  apply Fin.ext
  match a with
  | ⟨0, _⟩ => show win0_4.index t 0 * 64 + 1 * (y 0).val = (y 0).val; rw [e0]; omega
  | ⟨1, _⟩ => show win0_4.index t 1 * 64 + 1 * (y 1).val = (y 1).val; rw [e1]; omega

/-- What point t writes back is block t of the dense part of the arrays the region finds. -/
theorem flushed0_eq (c : Dev nD) (t : Fin cfg0.N) :
    (dat0 (F := Ideal) V c).flushed 5 t = ((cfg0.win 5).blk t).view.read (Elt Ideal)
      (Cert.Spec.dense (V c main_v24) (V c main_arg0) (V c main_v25) (V c main_arg5) (V c main_v26)) := by
  show (cfg0.win 5).cut (grid0.coords t) ((dat0 (F := Ideal) V c).after 5 t) = _
  rw [after0_5]
  unfold out0_5
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  obtain ⟨-, -, -, -, -, -, -, -, -, e0, e1⟩ := idx_facts0 t
  have hN : cfg0.N = 5 := N_0
  have hr : 10000 * t.val + p.val < 50000 := by have := t.isLt; have := p.isLt; omega
  show k0_pay1 (F := Ideal) (iblk0 V c 0 t) (iblk0 V c 1 t) (iblk0 V c 2 t) (iblk0 V c 4 t) (iblk0 V c 3 t) (ix2 p q)
    = Cert.Spec.dense (V c main_v24) (V c main_arg0) (V c main_v25) (V c main_arg5) (V c main_v26)
        (((cfg0.win 5).blk t).view.emb (ix2 p q))
  have he : ((cfg0.win 5).blk t).view.emb (ix2 p q) = ix2 (⟨10000 * t.val + p.val, hr⟩ : Fin 50000) q := by
    funext a
    apply Fin.ext
    match a with
    | ⟨0, _⟩ => show win0_5.index t 0 * 10000 + 1 * p.val = 10000 * t.val + p.val; rw [e0]; omega
    | ⟨1, _⟩ => show win0_5.index t 1 * 64 + 1 * q.val = q.val; rw [e1]; omega
  rw [he]
  exact block_dense (iblk0 V c 0 t) (iblk0 V c 1 t) (iblk0 V c 2 t) (iblk0 V c 4 t) (iblk0 V c 3 t)
    (V c main_v24) (V c main_arg0) (V c main_v25) (V c main_arg5) (V c main_v26) p q ⟨10000 * t.val + p.val, hr⟩
    (fun k => iblk0_0_apply V c t (ix2 p k) (ix2 ⟨10000 * t.val + p.val, hr⟩ k) rfl rfl)
    (fun k => iblk0_1_apply V c t (ix2 p k) (ix2 ⟨10000 * t.val + p.val, hr⟩ k) rfl rfl)
    (fun k => iblk0_2_apply V c t (ix2 k q))
    (fun k => iblk0_4_apply V c t (ix2 k q))
    (iblk0_3_apply V c t (ix1 q))

/-- An index of the output array is in point t's block iff each coordinate is in the block's range on its axis. -/
theorem mem_blk0 (t : Fin cfg0.N) (i : S50000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v27).slice (win0_5.rect t)).set ↔ _
  rw [View.set_slice_whole, Rect.mem_set_unit]
  exact Iff.rfl

/-- Every index of the output array is in some point's block: row r is in the block of point r / 10000. -/
theorem cover0 (i : S50000x64.Idx) :
    ∃ t : Fin cfg0.N, (cfg0.win 5).flush t = true ∧ i ∈ ((cfg0.win 5).blk t).view.set := by
  have hN : cfg0.N = 5 := N_0
  have hi0 : (i 0).val < 50000 := (i 0).isLt
  have hi1 : (i 1).val < 64 := (i 1).isLt
  refine ⟨⟨(i 0).val / 10000, by rw [hN]; omega⟩, flush0_5 _, ?_⟩
  rw [mem_blk0]
  obtain ⟨-, -, -, -, -, -, -, -, -, e0, e1⟩ := idx_facts0 ⟨(i 0).val / 10000, by rw [hN]; omega⟩
  intro a
  match a with
  | ⟨0, _⟩ => show win0_5.index _ (0 : Fin 2) * 10000 ≤ (i 0).val ∧ (i 0).val < win0_5.index _ (0 : Fin 2) * 10000 + 10000; rw [e0]; show (i 0).val / 10000 * 10000 ≤ (i 0).val ∧ (i 0).val < (i 0).val / 10000 * 10000 + 10000; omega
  | ⟨1, _⟩ => show win0_5.index _ (1 : Fin 2) * 64 ≤ (i 1).val ∧ (i 1).val < win0_5.index _ (1 : Fin 2) * 64 + 64; rw [e1]; omega

/-- Region 0's output array after its last write-back. -/
theorem region0_value (c : Dev nD) :
    (dat0 (F := Ideal) V c).arrAt 5 cfg0.N
      = Cert.Spec.dense (V c main_v24) (V c main_arg0) (V c main_v25) (V c main_arg5) (V c main_v26) :=
  (dat0 (F := Ideal) V c).arrAt_eq_of_cover 5
    (Cert.Spec.dense (V c main_v24) (V c main_arg0) (V c main_v25) (V c main_arg5) (V c main_v26))
    (fun t _ => flushed0_eq V c t) cover0

/-! ## Region 1: the same body, its second operand already in the narrow format -/

/-- The body's stored value at row p, column q of a block: the two products' entries added, the bias added, rectified. -/
theorem pay1_apply (x0 : FVec Ideal S10000x64 .f32) (x1 : FVec Ideal S10000x64 .bf16) (x2 x4 : FVec Ideal S64x64 .f32) (x3 : FVec Ideal S64 .f32)
    (p : Fin 10000) (q : Fin 64) :
    k1_pay1 (F := Ideal) x0 x1 x2 x4 x3 (ix2 p q)
      = max (((∑ k : Fin 64, x0 (ix2 p k) * x2 (ix2 k q)) + ∑ k : Fin 64, x1 (ix2 p k) * x4 (ix2 k q)) + x3 (ix1 q)) 0 := by
  unfold k1_pay1
  simp only [truncf_apply, maximumf_apply, addf_apply, broadcast_apply, shapeCast_self]
  rw [Cert.LibPlainDot.matmul_zero_apply dot_S10000x64_S64x64_S10000x64_1_0_0_1_n_n rfl,
    Cert.LibPlainDot.matmul_zero_apply dot_S10000x64_S64x64_S10000x64_1_0_0_1_n_n rfl,
    broadcastTo_1b_ab_apply, shapeCast_a_1a_apply, Ideal.ofBits_def, Ideal.ofBits_zero_f32]
  rfl

/-- With each entry of the blocks read from whole arrays (row r of the feature arrays, the weight matrices and the bias
    as they are), the body's stored value is the dense part at row r. -/
theorem block_dense1 (x0 : FVec Ideal S10000x64 .f32) (x1 : FVec Ideal S10000x64 .bf16) (x2 x4 : FVec Ideal S64x64 .f32) (x3 : FVec Ideal S64 .f32)
    (a x : Cert.Spec.SN.Idx → EReal) (wlT : Cert.Spec.SW.Idx → EReal) (bl : Cert.Spec.SB.Idx → EReal)
    (wrT : Cert.Spec.SW.Idx → EReal) (p : Fin 10000) (q : Fin 64) (r : Fin 50000)
    (h0 : ∀ k : Fin 64, x0 (ix2 p k) = a (ix2 r k)) (h1 : ∀ k : Fin 64, x1 (ix2 p k) = x (ix2 r k))
    (h2 : ∀ k : Fin 64, x2 (ix2 k q) = wlT (ix2 k q)) (h4 : ∀ k : Fin 64, x4 (ix2 k q) = wrT (ix2 k q))
    (h3 : x3 (ix1 q) = bl (ix1 q)) :
    k1_pay1 (F := Ideal) x0 x1 x2 x4 x3 (ix2 p q) = Cert.Spec.dense a x wlT bl wrT (ix2 r q) := by
  rw [pay1_apply, Cert.Spec.dense_apply]
  unfold Cert.Spec.denseAt
  simp only [h0, h1, h2, h4, h3]

/-- The windows' block indices over the five points: the row blocks sit at block row t, everything else at block 0. -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 1) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

/-- Window 0's block at point t is rows 10000 t … 10000 t + 9999 of its array. -/
theorem iblk1_0_apply (c : Dev nD) (t : Fin cfg1.N) (y : S10000x64.Idx) (k : S50000x64.Idx)
    (hk0 : (k 0).val = 10000 * t.val + (y 0).val) (hk1 : (k 1).val = (y 1).val) :
    (iblk1 V c 0 t : Vec Ideal S10000x64 .f32) y = (V c main_v40 : S50000x64.Idx → Elt Ideal .f32) k := by
  obtain ⟨e0, e1, -⟩ := idx_facts1 t
  unfold iblk1
  rw [View.read_apply]
  show V c main_v40 _ = V c main_v40 _
  congr 1
  funext a
  apply Fin.ext
  match a with
  | ⟨0, _⟩ => show win1_0.index t 0 * 10000 + 1 * (y 0).val = (k 0).val; rw [e0, hk0]; omega
  | ⟨1, _⟩ => show win1_0.index t 1 * 64 + 1 * (y 1).val = (k 1).val; rw [e1, hk1]; omega

/-- Window 1's block at point t is the same rows of its array. -/
theorem iblk1_1_apply (c : Dev nD) (t : Fin cfg1.N) (y : S10000x64.Idx) (k : S50000x64.Idx)
    (hk0 : (k 0).val = 10000 * t.val + (y 0).val) (hk1 : (k 1).val = (y 1).val) :
    (iblk1 V c 1 t : Vec Ideal S10000x64 .bf16) y = (V c main_v27 : S50000x64.Idx → Elt Ideal .bf16) k := by
  obtain ⟨-, -, e0, e1, -⟩ := idx_facts1 t
  unfold iblk1
  rw [View.read_apply]
  show V c main_v27 _ = V c main_v27 _
  congr 1
  funext a
  apply Fin.ext
  match a with
  | ⟨0, _⟩ => show win1_1.index t 0 * 10000 + 1 * (y 0).val = (k 0).val; rw [e0, hk0]; omega
  | ⟨1, _⟩ => show win1_1.index t 1 * 64 + 1 * (y 1).val = (k 1).val; rw [e1, hk1]; omega

/-- Window 2's block is its whole array. -/
theorem iblk1_2_apply (c : Dev nD) (t : Fin cfg1.N) (y : S64x64.Idx) :
    (iblk1 V c 2 t : Vec Ideal S64x64 .f32) y = (V c main_v41 : S64x64.Idx → Elt Ideal .f32) y := by
  obtain ⟨-, -, -, -, e0, e1, -⟩ := idx_facts1 t
  unfold iblk1
  rw [View.read_apply]
  show V c main_v41 _ = V c main_v41 _
  congr 1
  funext a
  apply Fin.ext
  match a with
  | ⟨0, _⟩ => show win1_2.index t 0 * 64 + 1 * (y 0).val = (y 0).val; rw [e0]; omega
  | ⟨1, _⟩ => show win1_2.index t 1 * 64 + 1 * (y 1).val = (y 1).val; rw [e1]; omega

/-- Window 3's block is its whole array. -/
theorem iblk1_3_apply (c : Dev nD) (t : Fin cfg1.N) (y : S64.Idx) :
    (iblk1 V c 3 t : Vec Ideal S64 .f32) y = (V c main_arg8 : S64.Idx → Elt Ideal .f32) y := by
  obtain ⟨-, -, -, -, -, -, e0, -⟩ := idx_facts1 t
  unfold iblk1
  rw [View.read_apply]
  show V c main_arg8 _ = V c main_arg8 _
  congr 1
  funext a
  apply Fin.ext
  match a with
  | ⟨0, _⟩ => show win1_3.index t 0 * 64 + 1 * (y 0).val = (y 0).val; rw [e0]; omega

/-- Window 4's block is its whole array. -/
theorem iblk1_4_apply (c : Dev nD) (t : Fin cfg1.N) (y : S64x64.Idx) :
    (iblk1 V c 4 t : Vec Ideal S64x64 .f32) y = (V c main_v42 : S64x64.Idx → Elt Ideal .f32) y := by
  obtain ⟨-, -, -, -, -, -, -, e0, e1, -⟩ := idx_facts1 t
  unfold iblk1
  rw [View.read_apply]
  show V c main_v42 _ = V c main_v42 _
  congr 1
  funext a
  apply Fin.ext
  match a with
  | ⟨0, _⟩ => show win1_4.index t 0 * 64 + 1 * (y 0).val = (y 0).val; rw [e0]; omega
  | ⟨1, _⟩ => show win1_4.index t 1 * 64 + 1 * (y 1).val = (y 1).val; rw [e1]; omega

/-- What point t writes back is block t of the dense part of the arrays the region finds. -/
theorem flushed1_eq (c : Dev nD) (t : Fin cfg1.N) :
    (dat1 (F := Ideal) V c).flushed 5 t = ((cfg1.win 5).blk t).view.read (Elt Ideal)
      (Cert.Spec.dense (V c main_v40) (V c main_v27) (V c main_v41) (V c main_arg8) (V c main_v42)) := by
  show (cfg1.win 5).cut (grid1.coords t) ((dat1 (F := Ideal) V c).after 5 t) = _
  rw [after1_5]
  unfold out1_5
  rw [View.canon_unit_zero hz2]
  simp only [View.ld_unit_zero (S := S10000x64) hz2, View.ld_unit_zero (S := S64x64) hz2, View.ld_unit_zero (S := S64) hz1]
  funext j
  obtain ⟨p, q, rfl⟩ : ∃ (p : Fin 10000) (q : Fin 64), j = ix2 p q := ⟨j 0, j 1, eq_ix2 j⟩
  obtain ⟨-, -, -, -, -, -, -, -, -, e0, e1⟩ := idx_facts1 t
  have hN : cfg1.N = 5 := N_1
  have hr : 10000 * t.val + p.val < 50000 := by have := t.isLt; have := p.isLt; omega
  show k1_pay1 (F := Ideal) (iblk1 V c 0 t) (iblk1 V c 1 t) (iblk1 V c 2 t) (iblk1 V c 4 t) (iblk1 V c 3 t) (ix2 p q)
    = Cert.Spec.dense (V c main_v40) (V c main_v27) (V c main_v41) (V c main_arg8) (V c main_v42)
        (((cfg1.win 5).blk t).view.emb (ix2 p q))
  have he : ((cfg1.win 5).blk t).view.emb (ix2 p q) = ix2 (⟨10000 * t.val + p.val, hr⟩ : Fin 50000) q := by
    funext a
    apply Fin.ext
    match a with
    | ⟨0, _⟩ => show win1_5.index t 0 * 10000 + 1 * p.val = 10000 * t.val + p.val; rw [e0]; omega
    | ⟨1, _⟩ => show win1_5.index t 1 * 64 + 1 * q.val = q.val; rw [e1]; omega
  rw [he]
  exact block_dense1 (iblk1 V c 0 t) (iblk1 V c 1 t) (iblk1 V c 2 t) (iblk1 V c 4 t) (iblk1 V c 3 t)
    (V c main_v40) (V c main_v27) (V c main_v41) (V c main_arg8) (V c main_v42) p q ⟨10000 * t.val + p.val, hr⟩
    (fun k => iblk1_0_apply V c t (ix2 p k) (ix2 ⟨10000 * t.val + p.val, hr⟩ k) rfl rfl)
    (fun k => iblk1_1_apply V c t (ix2 p k) (ix2 ⟨10000 * t.val + p.val, hr⟩ k) rfl rfl)
    (fun k => iblk1_2_apply V c t (ix2 k q))
    (fun k => iblk1_4_apply V c t (ix2 k q))
    (iblk1_3_apply V c t (ix1 q))

/-- An index of the output array is in point t's block iff each coordinate is in the block's range on its axis. -/
theorem mem_blk1 (t : Fin cfg1.N) (i : S50000x64.Idx) :
    i ∈ ((cfg1.win 5).blk t).view.set ↔ ∀ a : Fin 2, win1_5.index t a * S10000x64.size a ≤ (i a).val ∧ (i a).val < win1_5.index t a * S10000x64.size a + S10000x64.size a := by
  show i ∈ ((View.whole main_v43).slice (win1_5.rect t)).set ↔ _
  rw [View.set_slice_whole, Rect.mem_set_unit]
  exact Iff.rfl

/-- Every index of the output array is in some point's block: row r is in the block of point r / 10000. -/
theorem cover1 (i : S50000x64.Idx) :
    ∃ t : Fin cfg1.N, (cfg1.win 5).flush t = true ∧ i ∈ ((cfg1.win 5).blk t).view.set := by
  have hN : cfg1.N = 5 := N_1
  have hi0 : (i 0).val < 50000 := (i 0).isLt
  have hi1 : (i 1).val < 64 := (i 1).isLt
  refine ⟨⟨(i 0).val / 10000, by rw [hN]; omega⟩, flush1_5 _, ?_⟩
  rw [mem_blk1]
  obtain ⟨-, -, -, -, -, -, -, -, -, e0, e1⟩ := idx_facts1 ⟨(i 0).val / 10000, by rw [hN]; omega⟩
  intro a
  match a with
  | ⟨0, _⟩ => show win1_5.index _ (0 : Fin 2) * 10000 ≤ (i 0).val ∧ (i 0).val < win1_5.index _ (0 : Fin 2) * 10000 + 10000; rw [e0]; show (i 0).val / 10000 * 10000 ≤ (i 0).val ∧ (i 0).val < (i 0).val / 10000 * 10000 + 10000; omega
  | ⟨1, _⟩ => show win1_5.index _ (1 : Fin 2) * 64 ≤ (i 1).val ∧ (i 1).val < win1_5.index _ (1 : Fin 2) * 64 + 64; rw [e1]; omega

/-- Region 1's output array after its last write-back. -/
theorem region1_value (c : Dev nD) :
    (dat1 (F := Ideal) V c).arrAt 5 cfg1.N
      = Cert.Spec.dense (V c main_v40) (V c main_v27) (V c main_v41) (V c main_arg8) (V c main_v42) :=
  (dat1 (F := Ideal) V c).arrAt_eq_of_cover 5
    (Cert.Spec.dense (V c main_v40) (V c main_v27) (V c main_v41) (V c main_arg8) (V c main_v42))
    (fun t _ => flushed1_eq V c t) cover1

end Cert.KernelIdeal.Hand

end
-- ==== Proof.KFinal.lean ====
/-
  The kernel program's result as one function of its twelve arguments: the run's last buffer contents walked back
  through the closing host stretches, the second region, the stretch between the regions, the first region and the
  opening stretch, to the launch memory.
-/
import proofs.«416269_j79869211837021_3_alg».proof.Proof.KStages
import proofs.«416269_j79869211837021_3_alg».proof.Proof.KOut
import proofs.«416269_j79869211837021_3_alg».proof.Proof.Region
import proofs.«416269_j79869211837021_3_alg».proof.Proof.KernelRun

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## At the first region's exit -/

/-- A buffer neither region 0 nor the opening stretch writes holds its launch contents at region 0's exit. -/
theorem w2_of_w0 (b : Ref sig .tc) (hb : ∀ w, Pipeline.arrRef spec0 w ≠ b)
    (h0 : after hostOps0 (W0 m ρ c) (Proc.devRef .tc b) = W0 m ρ c (Proc.devRef .tc b)) :
    W2 m ρ c (Proc.devRef .tc b) = m ((c.tc : Thread nD τ).loc b) :=
  (W2_of_ne m ρ c b hb).trans h0

/-- Region 0's output array is the first layer's output. -/
theorem w2_v27 : W2 m ρ c (Proc.devRef .tc main_v27)
    = h1Of (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) := by
  refine (W2_arr m ρ c 5).trans ((region0_value (V1 m ρ) c).trans ?_)
  show Cert.Spec.dense (after hostOps0 (W0 m ρ c) (Proc.devRef .tc main_v24)) (after hostOps0 (W0 m ρ c) (Proc.devRef .tc main_arg0))
      (after hostOps0 (W0 m ρ c) (Proc.devRef .tc main_v25)) (after hostOps0 (W0 m ρ c) (Proc.devRef .tc main_arg5))
      (after hostOps0 (W0 m ρ c) (Proc.devRef .tc main_v26)) = _
  rw [stage0_v24, stage0_keep_main_arg0, stage0_v25, stage0_keep_main_arg5, stage0_v26]
  rfl

theorem w2_v1 : W2 m ρ c (Proc.devRef .tc main_v1) = src (F := Ideal) (m ((c.tc : Thread nD τ).loc main_arg1)) :=
  (W2_of_ne m ρ c main_v1 (by decide)).trans (stage0_v1 (W0 m ρ c))
theorem w2_v3 : W2 m ρ c (Proc.devRef .tc main_v3) = dst (F := Ideal) (m ((c.tc : Thread nD τ).loc main_arg1)) :=
  (W2_of_ne m ρ c main_v3 (by decide)).trans (stage0_v3 (W0 m ρ c))
theorem w2_v12 : W2 m ρ c (Proc.devRef .tc main_v12) = invDegOf (F := Ideal) (dst (F := Ideal) (m ((c.tc : Thread nD τ).loc main_arg1))) :=
  (W2_of_ne m ρ c main_v12 (by decide)).trans (stage0_v12 (W0 m ρ c))
theorem w2_arg2 : W2 m ρ c (Proc.devRef .tc main_arg2) = (m ((c.tc : Thread nD τ).loc main_arg2)) :=
  w2_of_w0 m ρ c main_arg2 (by decide) (stage0_keep_main_arg2 (W0 m ρ c))
theorem w2_arg3 : W2 m ρ c (Proc.devRef .tc main_arg3) = (m ((c.tc : Thread nD τ).loc main_arg3)) :=
  w2_of_w0 m ρ c main_arg3 (by decide) (stage0_keep_main_arg3 (W0 m ρ c))
theorem w2_arg7 : W2 m ρ c (Proc.devRef .tc main_arg7) = (m ((c.tc : Thread nD τ).loc main_arg7)) :=
  w2_of_w0 m ρ c main_arg7 (by decide) (stage0_keep_main_arg7 (W0 m ρ c))
theorem w2_arg8 : W2 m ρ c (Proc.devRef .tc main_arg8) = (m ((c.tc : Thread nD τ).loc main_arg8)) :=
  w2_of_w0 m ρ c main_arg8 (by decide) (stage0_keep_main_arg8 (W0 m ρ c))
theorem w2_arg9 : W2 m ρ c (Proc.devRef .tc main_arg9) = (m ((c.tc : Thread nD τ).loc main_arg9)) :=
  w2_of_w0 m ρ c main_arg9 (by decide) (stage0_keep_main_arg9 (W0 m ρ c))
theorem w2_arg10 : W2 m ρ c (Proc.devRef .tc main_arg10) = (m ((c.tc : Thread nD τ).loc main_arg10)) :=
  w2_of_w0 m ρ c main_arg10 (by decide) (stage0_keep_main_arg10 (W0 m ρ c))
theorem w2_arg11 : W2 m ρ c (Proc.devRef .tc main_arg11) = (m ((c.tc : Thread nD τ).loc main_arg11)) :=
  w2_of_w0 m ρ c main_arg11 (by decide) (stage0_keep_main_arg11 (W0 m ρ c))

/-! ## At the second region's exit -/

/-- Region 1's output array is the second layer's output. -/
theorem w4_v43 : W4 m ρ c (Proc.devRef .tc main_v43)
    = h2Of (h1Of (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6))) (m ((c.tc : Thread nD τ).loc main_arg1))
        (m ((c.tc : Thread nD τ).loc main_arg7)) (m ((c.tc : Thread nD τ).loc main_arg8)) (m ((c.tc : Thread nD τ).loc main_arg9)) := by
  refine (W4_arr m ρ c 5).trans ((region1_value (V3 m ρ) c).trans ?_)
  show Cert.Spec.dense (after hostOps1 (W2 m ρ c) (Proc.devRef .tc main_v40)) (after hostOps1 (W2 m ρ c) (Proc.devRef .tc main_v27))
      (after hostOps1 (W2 m ρ c) (Proc.devRef .tc main_v41)) (after hostOps1 (W2 m ρ c) (Proc.devRef .tc main_arg8))
      (after hostOps1 (W2 m ρ c) (Proc.devRef .tc main_v42)) = _
  rw [stage1_v40, stage1_keep_main_v27, stage1_v41, stage1_keep_main_arg8, stage1_v42,
    w2_v27, w2_v1, w2_v3, w2_v12, w2_arg7, w2_arg8, w2_arg9]
  rfl

theorem w4_arg2 : W4 m ρ c (Proc.devRef .tc main_arg2) = (m ((c.tc : Thread nD τ).loc main_arg2)) :=
  (W4_of_ne m ρ c main_arg2 (by decide)).trans ((stage1_keep_main_arg2 (W2 m ρ c)).trans (w2_arg2 m ρ c))
theorem w4_arg3 : W4 m ρ c (Proc.devRef .tc main_arg3) = (m ((c.tc : Thread nD τ).loc main_arg3)) :=
  (W4_of_ne m ρ c main_arg3 (by decide)).trans ((stage1_keep_main_arg3 (W2 m ρ c)).trans (w2_arg3 m ρ c))
theorem w4_arg10 : W4 m ρ c (Proc.devRef .tc main_arg10) = (m ((c.tc : Thread nD τ).loc main_arg10)) :=
  (W4_of_ne m ρ c main_arg10 (by decide)).trans ((stage1_keep_main_arg10 (W2 m ρ c)).trans (w2_arg10 m ρ c))
theorem w4_arg11 : W4 m ρ c (Proc.devRef .tc main_arg11) = (m ((c.tc : Thread nD τ).loc main_arg11)) :=
  (W4_of_ne m ρ c main_arg11 (by decide)).trans ((stage1_keep_main_arg11 (W2 m ρ c)).trans (w2_arg11 m ρ c))

/-! ## The result -/

/-- The result buffer's last contents are `kout` of the launch arrays. -/
theorem kernel_value : W9 m ρ c (Proc.devRef .tc main_v70) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show after hostOps2_4 (after hostOps2_3 (after hostOps2_2 (after hostOps2_1 (after hostOps2 (W4 m ρ c))))) (Proc.devRef .tc main_v70) = _
  rw [tail_v70, w4_v43, w4_arg2, w4_arg3, w4_arg10, w4_arg11]
  rfl

/-- The kernel program run: every weakly fair execution terminates with the result buffer at `kout` of the launch
    arrays and the arguments unchanged. -/
theorem kernel_run : θ_run defs (onTc (τ := τ) (main (F := Ideal))) ⟨m, fun _ => 0, ρ⟩ fun r => ∀ c : Dev nD,
      r.2.mem ((c.tc : Thread nD τ).loc main_v70) = kout (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun r h c => ⟨(h c).1.trans (kernel_value m ρ c), (h c).2⟩) (Cert.KernelIdeal.RunV.run_main m ρ)

end Cert.KernelIdeal.Hand

end
-- ==== Proof.RefValue.lean ====
/-
  The reference's result as one function of its twelve arguments, stage by stage.

  Two graph-convolution layers and a readout. With src, dst the two rows of the edge list (a negative source index
  wrapped by 50000), one layer is

    agg x       = the sum, into row dst[n], of row src[n] of x, over the edges n            (gather, then scatter-add)
    degMax      = max (the number of edges into each node) 1
    mean x      = agg x / degMax                                                            (each row by its node's count)
    lin a x     = max ((a · Wlᵀ + bl) + x · Wrᵀ) 0
    layer x     = lin (mean x) x

  and the readout picks, for each of the 500 graphs, the row at (the graph's first node) + (its centre position) — the
  first node being the running count of the nodes of the graphs before it — and maps it by a [1, 64] matrix and a bias.
-/
import proofs.«416269_j79869211837021_3_alg».proof.ReferenceIdeal
import proofs.«416269_j79869211837021_3_alg».proof.Proof.Gen.ReferenceIdeal

noncomputable section

namespace Cert.ReferenceIdeal.Hand

open Cert.ReferenceIdeal Cert.ReferenceIdeal.Gen Idealize.ShloMosaic Idealize.ShloMosaic.TcCoe

variable {F : FTy → Type} [FloatOps F]

/-- Row 0 of the edge list: the edges' sources. -/
def src (e : (⟨S2x800000, .i32⟩ : BufTy).Contents (Elt F)) : (⟨S800000, .i32⟩ : BufTy).Contents (Elt F) :=
  shapeCast S800000 (extractStridedSlice S1x800000 ![0, 0] e slices_S2x800000_S1x800000_0_0) shapeCasts_S1x800000_S800000

/-- Row 1 of the edge list: the edges' targets. -/
def dst (e : (⟨S2x800000, .i32⟩ : BufTy).Contents (Elt F)) : (⟨S800000, .i32⟩ : BufTy).Contents (Elt F) :=
  shapeCast S800000 (extractStridedSlice S1x800000 ![1, 0] e slices_S2x800000_S1x800000_1_0) shapeCasts_S1x800000_S800000

/-- The sources as a column of row indices, a negative one wrapped by the number of nodes. -/
def srcIdx (e : (⟨S2x800000, .i32⟩ : BufTy).Contents (Elt F)) : (⟨S800000x1, .i32⟩ : BufTy).Contents (Elt F) :=
  broadcastInDim S800000x1 ![0] bcast_S800000_S800000x1_0
    (select (cmpi .slt (src (F := F) e) (broadcastInDim S800000 ![] bcast_S_S800000 (constantI S_ 32 0#32)))
      (addi (src (F := F) e) (broadcastInDim S800000 ![] bcast_S_S800000 (constantI S_ 32 50000#32))) (src (F := F) e))

/-- The targets as a column of row indices. -/
def dstIdx (e : (⟨S2x800000, .i32⟩ : BufTy).Contents (Elt F)) : (⟨S800000x1, .i32⟩ : BufTy).Contents (Elt F) :=
  broadcastInDim S800000x1 ![0] bcast_S800000_S800000x1_0 (dst (F := F) e)

/-- The rows of `x` at the edges' sources, summed into the edges' targets. -/
def agg (x : (⟨S50000x64, .f32⟩ : BufTy).Contents (Elt F)) (e : (⟨S2x800000, .i32⟩ : BufTy).Contents (Elt F)) :
    (⟨S50000x64, .f32⟩ : BufTy).Contents (Elt F) :=
  Host.scatterAdd scatter_S50000x64_S800000x1_S800000x64_1_0_0_1
    (broadcastInDim S50000x64 ![] bcast_S_S50000x64 (constant S_ .f32 0x00000000#32)) (dstIdx (F := F) e)
    (Host.gather gather_S50000x64_S800000x1_S800000x64_1_0_n_n_0_1_164 x (srcIdx (F := F) e))

/-- Each node's number of incoming edges, at least one. -/
def degMax (e : (⟨S2x800000, .i32⟩ : BufTy).Contents (Elt F)) : (⟨S50000, .f32⟩ : BufTy).Contents (Elt F) :=
  maximumf
    (Host.scatterAdd scatter_S50000_S800000x1_S800000_n_0_0_1
      (broadcastInDim S50000 ![] bcast_S_S50000 (constant S_ .f32 0x00000000#32)) (dstIdx (F := F) e)
      (broadcastInDim S800000 ![] bcast_S_S800000 (constant S_ .f32 0x3F800000#32)))
    (broadcastInDim S50000 ![] bcast_S_S50000 (constant S_ .f32 0x3F800000#32))

/-- The neighbour mean: the aggregate divided, row by row, by the node's count. -/
def mean (x : (⟨S50000x64, .f32⟩ : BufTy).Contents (Elt F)) (e : (⟨S2x800000, .i32⟩ : BufTy).Contents (Elt F)) :
    (⟨S50000x64, .f32⟩ : BufTy).Contents (Elt F) :=
  Host.divf (agg x e)
    (broadcastInDim S50000x64 ![0, 1] bcast_S50000x1_S50000x64_0_1
      (broadcastInDim S50000x1 ![0] bcast_S50000_S50000x1_0 (degMax (F := F) e)))

/-- The dense part of a layer: rectified `(a · Wlᵀ + bl) + x · Wrᵀ`. -/
def lin (a x : (⟨S50000x64, .f32⟩ : BufTy).Contents (Elt F)) (wl : (⟨S64x64, .f32⟩ : BufTy).Contents (Elt F))
    (bl : (⟨S64, .f32⟩ : BufTy).Contents (Elt F)) (wr : (⟨S64x64, .f32⟩ : BufTy).Contents (Elt F)) :
    (⟨S50000x64, .f32⟩ : BufTy).Contents (Elt F) :=
  maximumf
    (addf
      (addf (Host.dotGeneral dot_S50000x64_S64x64_S50000x64_1_0_0_1_n_n none a (transpose S64x64 [1, 0] wl transposes_S64x64_S64x64_1_0))
        (broadcastInDim S50000x64 ![0, 1] bcast_S1x64_S50000x64_0_1 (broadcastInDim S1x64 ![1] bcast_S64_S1x64_1 bl)))
      (Host.dotGeneral dot_S50000x64_S64x64_S50000x64_1_0_0_1_n_n none x (transpose S64x64 [1, 0] wr transposes_S64x64_S64x64_1_0)))
    (broadcastInDim S50000x64 ![] bcast_S_S50000x64 (constant S_ .f32 0x00000000#32))

/-- One layer. -/
def layer (x : (⟨S50000x64, .f32⟩ : BufTy).Contents (Elt F)) (e : (⟨S2x800000, .i32⟩ : BufTy).Contents (Elt F))
    (wl : (⟨S64x64, .f32⟩ : BufTy).Contents (Elt F)) (bl : (⟨S64, .f32⟩ : BufTy).Contents (Elt F))
    (wr : (⟨S64x64, .f32⟩ : BufTy).Contents (Elt F)) : (⟨S50000x64, .f32⟩ : BufTy).Contents (Elt F) :=
  lin (mean x e) x wl bl wr

/-- How many nodes each graph has: ones summed at the nodes' graph ids (an id clipped below at 0, a negative one wrapped). -/
def counts (batch : (⟨S50000, .i32⟩ : BufTy).Contents (Elt F)) : (⟨S500, .i32⟩ : BufTy).Contents (Elt F) :=
  Host.scatter scatter_S500_S50000x1_S50000_n_0_0_1 IntOp.addi
    (broadcastInDim S500 ![] bcast_S_S500 (constantI S_ 32 0#32))
    (broadcastInDim S50000x1 ![0] bcast_S50000_S50000x1_0
      (select
        (cmpi .slt (maxsi (broadcastInDim S50000 ![] bcast_S_S50000 (id (constantI S_ 32 0#32))) batch)
          (broadcastInDim S50000 ![] bcast_S_S50000 (constantI S_ 32 0#32)))
        (addi (maxsi (broadcastInDim S50000 ![] bcast_S_S50000 (id (constantI S_ 32 0#32))) batch)
          (broadcastInDim S50000 ![] bcast_S_S50000 (constantI S_ 32 500#32)))
        (maxsi (broadcastInDim S50000 ![] bcast_S_S50000 (id (constantI S_ 32 0#32))) batch)))
    (broadcastInDim S50000 ![] bcast_S_S50000 (constantI S_ 32 1#32))

/-- Each graph's centre node as a global row: the running count of the graphs before it, plus the centre's position. -/
def centerRow (batch : (⟨S50000, .i32⟩ : BufTy).Contents (Elt F)) (cpos : (⟨S500, .i32⟩ : BufTy).Contents (Elt F)) :
    (⟨S500, .i32⟩ : BufTy).Contents (Elt F) :=
  addi
    (subi
      (Host.reduceWindow IntOp.addi ![500] ![1] ![499] ![0] (counts (F := F) batch)
        (broadcastInDim S_ ![] bcast_S_S_ (constantI S_ 32 0#32)) reduceWindows_S500_S500_w500s1p499_0 h_S_)
      (counts (F := F) batch))
    cpos

/-- The centre rows as a column of row indices, a negative one wrapped by the number of nodes. -/
def centerIdx (batch : (⟨S50000, .i32⟩ : BufTy).Contents (Elt F)) (cpos : (⟨S500, .i32⟩ : BufTy).Contents (Elt F)) :
    (⟨S500x1, .i32⟩ : BufTy).Contents (Elt F) :=
  broadcastInDim S500x1 ![0] bcast_S500_S500x1_0
    (select (cmpi .slt (centerRow (F := F) batch cpos) (broadcastInDim S500 ![] bcast_S_S500 (constantI S_ 32 0#32)))
      (addi (centerRow (F := F) batch cpos) (broadcastInDim S500 ![] bcast_S_S500 (constantI S_ 32 50000#32)))
      (centerRow (F := F) batch cpos))

/-- The readout: the centre rows of `h` mapped by `wlin`ᵀ, plus the bias. -/
def readout (h : (⟨S50000x64, .f32⟩ : BufTy).Contents (Elt F)) (batch : (⟨S50000, .i32⟩ : BufTy).Contents (Elt F))
    (cpos : (⟨S500, .i32⟩ : BufTy).Contents (Elt F)) (wlin : (⟨S1x64, .f32⟩ : BufTy).Contents (Elt F))
    (blin : (⟨S1, .f32⟩ : BufTy).Contents (Elt F)) : (⟨S500, .f32⟩ : BufTy).Contents (Elt F) :=
  shapeCast S500
    (addf
      (Host.dotGeneral dot_S500x64_S64x1_S500x1_1_0_0_1_n_n none
        (Host.gather gather_S50000x64_S500x1_S500x64_1_0_n_n_0_1_164 h (centerIdx (F := F) batch cpos))
        (transpose S64x1 [1, 0] wlin transposes_S1x64_S64x1_1_0))
      (broadcastInDim S500x1 ![0, 1] bcast_S1x1_S500x1_0_1 (broadcastInDim S1x1 ![1] bcast_S1_S1x1_1 blin)))
    shapeCasts_S500x1_S500

/-- The reference's result. -/
def out (x : (⟨S50000x64, .f32⟩ : BufTy).Contents (Elt F)) (e : (⟨S2x800000, .i32⟩ : BufTy).Contents (Elt F))
    (batch : (⟨S50000, .i32⟩ : BufTy).Contents (Elt F)) (cpos : (⟨S500, .i32⟩ : BufTy).Contents (Elt F))
    (wl1 : (⟨S64x64, .f32⟩ : BufTy).Contents (Elt F)) (bl1 : (⟨S64, .f32⟩ : BufTy).Contents (Elt F))
    (wr1 : (⟨S64x64, .f32⟩ : BufTy).Contents (Elt F)) (wl2 : (⟨S64x64, .f32⟩ : BufTy).Contents (Elt F))
    (bl2 : (⟨S64, .f32⟩ : BufTy).Contents (Elt F)) (wr2 : (⟨S64x64, .f32⟩ : BufTy).Contents (Elt F))
    (wlin : (⟨S1x64, .f32⟩ : BufTy).Contents (Elt F)) (blin : (⟨S1, .f32⟩ : BufTy).Contents (Elt F)) :
    (⟨S500, .f32⟩ : BufTy).Contents (Elt F) :=
  readout (layer (layer x e wl1 bl1 wr1) e wl2 bl2 wr2) batch cpos wlin blin

end Cert.ReferenceIdeal.Hand

end
-- ==== Proof.RefRun.lean ====
/-
  The reference program run: its @main is a straight line of host operations (the functions it calls are run at their
  call sites, on the call's own buffers), so every weakly fair execution terminates with each buffer at the operations'
  composed value of the launch contents. Read at the result buffer that value is `Hand.out` of the twelve arguments,
  and no operation writes an argument.

  The line is read in stretches: the first layer, the second layer, and the readout cut where it calls a function.
  Each stretch is read over arbitrary contents — one equation per value a later stretch reads, and that the stretch
  leaves alone every buffer it does not write — and the stretches are then composed.
-/
import proofs.«416269_j79869211837021_3_alg».proof.Proof.RefValue
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The contents after two lines run one after the other: the second line's fold over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- The first layer: @main's operations up to the first rectification (the callee's three at its call site, over the
    call's own buffers). -/
abbrev ops1 : List (HloOp τ sig (Elt F)) :=
  [ unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    reshape main_v0 main_v1 rfl shapeCasts_S1x800000_S800000,
    unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    reshape main_v2 main_v3 rfl shapeCasts_S1x800000_S800000,
    nullary main_c (constantI S_ 32 0#32),
    unary main_c main_v4 (broadcastInDim S800000 ![] bcast_S_S800000 : (⟨S_, .i32⟩ : BufTy).Contents (Elt F) → (⟨S800000, .i32⟩ : BufTy).Contents (Elt F)),
    binary main_v1 main_v4 main_v5 (cmpi .slt : (⟨S800000, .i32⟩ : BufTy).Contents (Elt F) → (⟨S800000, .i32⟩ : BufTy).Contents (Elt F) → (⟨S800000, .i1⟩ : BufTy).Contents (Elt F)),
    nullary main_c_0 (constantI S_ 32 50000#32),
    unary main_c_0 main_v6 (broadcastInDim S800000 ![] bcast_S_S800000 : (⟨S_, .i32⟩ : BufTy).Contents (Elt F) → (⟨S800000, .i32⟩ : BufTy).Contents (Elt F)),
    binary main_v1 main_v6 main_v7 (addi : (⟨S800000, .i32⟩ : BufTy).Contents (Elt F) → (⟨S800000, .i32⟩ : BufTy).Contents (Elt F) → (⟨S800000, .i32⟩ : BufTy).Contents (Elt F)),
    ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v8 main_v9 (broadcastInDim S800000x1 ![0] bcast_S800000_S800000x1_0 : (⟨S800000, .i32⟩ : BufTy).Contents (Elt F) → (⟨S800000x1, .i32⟩ : BufTy).Contents (Elt F)),
    binary main_arg0 main_v9 main_v10 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst (constant S_ .f32 0x00000000#32),
    unary main_cst main_v11 (broadcastInDim S50000x64 ![] bcast_S_S50000x64 : (⟨S_, .f32⟩ : BufTy).Contents (Elt F) → (⟨S50000x64, .f32⟩ : BufTy).Contents (Elt F)),
    unary main_v3 main_v12 (broadcastInDim S800000x1 ![0] bcast_S800000_S800000x1_0 : (⟨S800000, .i32⟩ : BufTy).Contents (Elt F) → (⟨S800000x1, .i32⟩ : BufTy).Contents (Elt F)),
    ternary main_v11 main_v12 main_v10 main_v13 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_1 (constant S_ .f32 0x3F800000#32),
    unary main_cst_1 main_v14 (broadcastInDim S800000 ![] bcast_S_S800000 : (⟨S_, .f32⟩ : BufTy).Contents (Elt F) → (⟨S800000, .f32⟩ : BufTy).Contents (Elt F)),
    nullary main_cst_2 (constant S_ .f32 0x00000000#32),
    unary main_cst_2 main_v15 (broadcastInDim S50000 ![] bcast_S_S50000 : (⟨S_, .f32⟩ : BufTy).Contents (Elt F) → (⟨S50000, .f32⟩ : BufTy).Contents (Elt F)),
    unary main_v3 main_v16 (broadcastInDim S800000x1 ![0] bcast_S800000_S800000x1_0 : (⟨S800000, .i32⟩ : BufTy).Contents (Elt F) → (⟨S800000x1, .i32⟩ : BufTy).Contents (Elt F)),
    ternary main_v15 main_v16 main_v14 main_v17 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_3 (constant S_ .f32 0x3F800000#32),
    unary main_cst_3 main_v18 (broadcastInDim S50000 ![] bcast_S_S50000 : (⟨S_, .f32⟩ : BufTy).Contents (Elt F) → (⟨S50000, .f32⟩ : BufTy).Contents (Elt F)),
    binary main_v17 main_v18 main_v19 (maximumf : (⟨S50000, .f32⟩ : BufTy).Contents (Elt F) → (⟨S50000, .f32⟩ : BufTy).Contents (Elt F) → (⟨S50000, .f32⟩ : BufTy).Contents (Elt F)),
    unary main_v19 main_v20 (broadcastInDim S50000x1 ![0] bcast_S50000_S50000x1_0 : (⟨S50000, .f32⟩ : BufTy).Contents (Elt F) → (⟨S50000x1, .f32⟩ : BufTy).Contents (Elt F)),
    unary main_v20 main_v21 (broadcastInDim S50000x64 ![0, 1] bcast_S50000x1_S50000x64_0_1 : (⟨S50000x1, .f32⟩ : BufTy).Contents (Elt F) → (⟨S50000x64, .f32⟩ : BufTy).Contents (Elt F)),
    binary main_v13 main_v21 main_v22 (Host.divf : (⟨S50000x64, .f32⟩ : BufTy).Contents (Elt F) → (⟨S50000x64, .f32⟩ : BufTy).Contents (Elt F) → (⟨S50000x64, .f32⟩ : BufTy).Contents (Elt F)),
    unary main_arg4 main_v23 ((transpose S64x64 [1, 0] · transposes_S64x64_S64x64_1_0) : (⟨S64x64, .f32⟩ : BufTy).Contents (Elt F) → (⟨S64x64, .f32⟩ : BufTy).Contents (Elt F)),
    binary main_v22 main_v23 main_v24 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg5 main_v25 (broadcastInDim S1x64 ![1] bcast_S64_S1x64_1 : (⟨S64, .f32⟩ : BufTy).Contents (Elt F) → (⟨S1x64, .f32⟩ : BufTy).Contents (Elt F)),
    unary main_v25 main_v26 (broadcastInDim S50000x64 ![0, 1] bcast_S1x64_S50000x64_0_1 : (⟨S1x64, .f32⟩ : BufTy).Contents (Elt F) → (⟨S50000x64, .f32⟩ : BufTy).Contents (Elt F)),
    binary main_v24 main_v26 main_v27 (addf : (⟨S50000x64, .f32⟩ : BufTy).Contents (Elt F) → (⟨S50000x64, .f32⟩ : BufTy).Contents (Elt F) → (⟨S50000x64, .f32⟩ : BufTy).Contents (Elt F)),
    unary main_arg6 main_v28 ((transpose S64x64 [1, 0] · transposes_S64x64_S64x64_1_0) : (⟨S64x64, .f32⟩ : BufTy).Contents (Elt F) → (⟨S64x64, .f32⟩ : BufTy).Contents (Elt F)),
    binary main_arg0 main_v28 main_v29 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v27 main_v29 main_v30 (addf : (⟨S50000x64, .f32⟩ : BufTy).Contents (Elt F) → (⟨S50000x64, .f32⟩ : BufTy).Contents (Elt F) → (⟨S50000x64, .f32⟩ : BufTy).Contents (Elt F)),
    TRef.nullary main_call0.cst (constant S_ .f32 0x00000000#32),
    TRef.unary main_call0.cst main_call0.v0 (broadcastInDim S50000x64 ![] bcast_S_S50000x64),
    TRef.binary (.of main_v30) main_call0.v0 main_call0.v1 maximumf ]

/-- The second layer: from there up to the second rectification. -/
abbrev ops2 : List (HloOp τ sig (Elt F)) :=
  [ nullary main_c_4 (constantI S_ 32 0#32),
    unary main_c_4 main_v32 (broadcastInDim S800000 ![] bcast_S_S800000 : (⟨S_, .i32⟩ : BufTy).Contents (Elt F) → (⟨S800000, .i32⟩ : BufTy).Contents (Elt F)),
    binary main_v1 main_v32 main_v33 (cmpi .slt : (⟨S800000, .i32⟩ : BufTy).Contents (Elt F) → (⟨S800000, .i32⟩ : BufTy).Contents (Elt F) → (⟨S800000, .i1⟩ : BufTy).Contents (Elt F)),
    nullary main_c_5 (constantI S_ 32 50000#32),
    unary main_c_5 main_v34 (broadcastInDim S800000 ![] bcast_S_S800000 : (⟨S_, .i32⟩ : BufTy).Contents (Elt F) → (⟨S800000, .i32⟩ : BufTy).Contents (Elt F)),
    binary main_v1 main_v34 main_v35 (addi : (⟨S800000, .i32⟩ : BufTy).Contents (Elt F) → (⟨S800000, .i32⟩ : BufTy).Contents (Elt F) → (⟨S800000, .i32⟩ : BufTy).Contents (Elt F)),
    ternary main_v33 main_v35 main_v1 main_v36 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v36 main_v37 (broadcastInDim S800000x1 ![0] bcast_S800000_S800000x1_0 : (⟨S800000, .i32⟩ : BufTy).Contents (Elt F) → (⟨S800000x1, .i32⟩ : BufTy).Contents (Elt F)),
    binary main_v31 main_v37 main_v38 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    nullary main_cst_6 (constant S_ .f32 0x00000000#32),
    unary main_cst_6 main_v39 (broadcastInDim S50000x64 ![] bcast_S_S50000x64 : (⟨S_, .f32⟩ : BufTy).Contents (Elt F) → (⟨S50000x64, .f32⟩ : BufTy).Contents (Elt F)),
    unary main_v3 main_v40 (broadcastInDim S800000x1 ![0] bcast_S800000_S800000x1_0 : (⟨S800000, .i32⟩ : BufTy).Contents (Elt F) → (⟨S800000x1, .i32⟩ : BufTy).Contents (Elt F)),
    ternary main_v39 main_v40 main_v38 main_v41 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    nullary main_cst_7 (constant S_ .f32 0x3F800000#32),
    unary main_cst_7 main_v42 (broadcastInDim S800000 ![] bcast_S_S800000 : (⟨S_, .f32⟩ : BufTy).Contents (Elt F) → (⟨S800000, .f32⟩ : BufTy).Contents (Elt F)),
    nullary main_cst_8 (constant S_ .f32 0x00000000#32),
    unary main_cst_8 main_v43 (broadcastInDim S50000 ![] bcast_S_S50000 : (⟨S_, .f32⟩ : BufTy).Contents (Elt F) → (⟨S50000, .f32⟩ : BufTy).Contents (Elt F)),
    unary main_v3 main_v44 (broadcastInDim S800000x1 ![0] bcast_S800000_S800000x1_0 : (⟨S800000, .i32⟩ : BufTy).Contents (Elt F) → (⟨S800000x1, .i32⟩ : BufTy).Contents (Elt F)),
    ternary main_v43 main_v44 main_v42 main_v45 ((fun x i u => Host.scatterAdd scatter_S50000_S800000x1_S800000_n_0_0_1 x i u) : (⟨S50000, .f32⟩ : BufTy).Contents (Elt F) → (⟨S800000x1, .i32⟩ : BufTy).Contents (Elt F) → (⟨S800000, .f32⟩ : BufTy).Contents (Elt F) → (⟨S50000, .f32⟩ : BufTy).Contents (Elt F)),
    nullary main_cst_9 (constant S_ .f32 0x3F800000#32),
    unary main_cst_9 main_v46 (broadcastInDim S50000 ![] bcast_S_S50000 : (⟨S_, .f32⟩ : BufTy).Contents (Elt F) → (⟨S50000, .f32⟩ : BufTy).Contents (Elt F)),
    binary main_v45 main_v46 main_v47 (maximumf : (⟨S50000, .f32⟩ : BufTy).Contents (Elt F) → (⟨S50000, .f32⟩ : BufTy).Contents (Elt F) → (⟨S50000, .f32⟩ : BufTy).Contents (Elt F)),
    unary main_v47 main_v48 (broadcastInDim S50000x1 ![0] bcast_S50000_S50000x1_0 : (⟨S50000, .f32⟩ : BufTy).Contents (Elt F) → (⟨S50000x1, .f32⟩ : BufTy).Contents (Elt F)),
    unary main_v48 main_v49 (broadcastInDim S50000x64 ![0, 1] bcast_S50000x1_S50000x64_0_1 : (⟨S50000x1, .f32⟩ : BufTy).Contents (Elt F) → (⟨S50000x64, .f32⟩ : BufTy).Contents (Elt F)),
    binary main_v41 main_v49 main_v50 (Host.divf : (⟨S50000x64, .f32⟩ : BufTy).Contents (Elt F) → (⟨S50000x64, .f32⟩ : BufTy).Contents (Elt F) → (⟨S50000x64, .f32⟩ : BufTy).Contents (Elt F)),
    unary main_arg7 main_v51 ((transpose S64x64 [1, 0] · transposes_S64x64_S64x64_1_0) : (⟨S64x64, .f32⟩ : BufTy).Contents (Elt F) → (⟨S64x64, .f32⟩ : BufTy).Contents (Elt F)),
    binary main_v50 main_v51 main_v52 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    unary main_arg8 main_v53 (broadcastInDim S1x64 ![1] bcast_S64_S1x64_1 : (⟨S64, .f32⟩ : BufTy).Contents (Elt F) → (⟨S1x64, .f32⟩ : BufTy).Contents (Elt F)),
    unary main_v53 main_v54 (broadcastInDim S50000x64 ![0, 1] bcast_S1x64_S50000x64_0_1 : (⟨S1x64, .f32⟩ : BufTy).Contents (Elt F) → (⟨S50000x64, .f32⟩ : BufTy).Contents (Elt F)),
    binary main_v52 main_v54 main_v55 (addf : (⟨S50000x64, .f32⟩ : BufTy).Contents (Elt F) → (⟨S50000x64, .f32⟩ : BufTy).Contents (Elt F) → (⟨S50000x64, .f32⟩ : BufTy).Contents (Elt F)),
    unary main_arg9 main_v56 ((transpose S64x64 [1, 0] · transposes_S64x64_S64x64_1_0) : (⟨S64x64, .f32⟩ : BufTy).Contents (Elt F) → (⟨S64x64, .f32⟩ : BufTy).Contents (Elt F)),
    binary main_v31 main_v56 main_v57 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    binary main_v55 main_v57 main_v58 (addf : (⟨S50000x64, .f32⟩ : BufTy).Contents (Elt F) → (⟨S50000x64, .f32⟩ : BufTy).Contents (Elt F) → (⟨S50000x64, .f32⟩ : BufTy).Contents (Elt F)),
    TRef.nullary main_call1.cst (constant S_ .f32 0x00000000#32),
    TRef.unary main_call1.cst main_call1.v0 (broadcastInDim S50000x64 ![] bcast_S_S50000x64),
    TRef.binary (.of main_v58) main_call1.v0 main_call1.v1 maximumf ]

/-- The readout, part 0: the two zeros the readout starts from. -/
abbrev r0 : List (HloOp τ sig (Elt F)) :=
  [ nullary main_c_10 (constantI S_ 32 0#32),
    unary main_c_10 main_v60 (broadcastInDim S500 ![] bcast_S_S500 : (⟨S_, .i32⟩ : BufTy).Contents (Elt F) → (⟨S500, .i32⟩ : BufTy).Contents (Elt F)),
    nullary main_c_11 (constantI S_ 32 0#32) ]

/-- The readout, part 1: the graph ids clipped below at zero (the callee's three operations, over the call's own buffers). -/
abbrev r1 : List (HloOp τ sig (Elt F)) :=
  [ TRef.unary (.of main_c_11) main_call2.v0 id,
    TRef.unary main_call2.v0 main_call2.v1 (broadcastInDim S50000 ![] bcast_S_S50000),
    TRef.binary main_call2.v1 (.of main_arg2) main_call2.v2 maxsi ]

/-- The readout, part 2: the graphs' node counts. -/
abbrev r2 : List (HloOp τ sig (Elt F)) :=
  [ nullary main_c_12 (constantI S_ 32 0#32),
    unary main_c_12 main_v62 (broadcastInDim S50000 ![] bcast_S_S50000 : (⟨S_, .i32⟩ : BufTy).Contents (Elt F) → (⟨S50000, .i32⟩ : BufTy).Contents (Elt F)),
    binary main_v61 main_v62 main_v63 (cmpi .slt : (⟨S50000, .i32⟩ : BufTy).Contents (Elt F) → (⟨S50000, .i32⟩ : BufTy).Contents (Elt F) → (⟨S50000, .i1⟩ : BufTy).Contents (Elt F)),
    nullary main_c_13 (constantI S_ 32 500#32),
    unary main_c_13 main_v64 (broadcastInDim S50000 ![] bcast_S_S50000 : (⟨S_, .i32⟩ : BufTy).Contents (Elt F) → (⟨S50000, .i32⟩ : BufTy).Contents (Elt F)),
    binary main_v61 main_v64 main_v65 (addi : (⟨S50000, .i32⟩ : BufTy).Contents (Elt F) → (⟨S50000, .i32⟩ : BufTy).Contents (Elt F) → (⟨S50000, .i32⟩ : BufTy).Contents (Elt F)),
    ternary main_v63 main_v65 main_v61 main_v66 (select : (⟨S50000, .i1⟩ : BufTy).Contents (Elt F) → (⟨S50000, .i32⟩ : BufTy).Contents (Elt F) → (⟨S50000, .i32⟩ : BufTy).Contents (Elt F) → (⟨S50000, .i32⟩ : BufTy).Contents (Elt F)),
    unary main_v66 main_v67 (broadcastInDim S50000x1 ![0] bcast_S50000_S50000x1_0 : (⟨S50000, .i32⟩ : BufTy).Contents (Elt F) → (⟨S50000x1, .i32⟩ : BufTy).Contents (Elt F)),
    nullary main_c_14 (constantI S_ 32 1#32),
    unary main_c_14 main_v68 (broadcastInDim S50000 ![] bcast_S_S50000 : (⟨S_, .i32⟩ : BufTy).Contents (Elt F) → (⟨S50000, .i32⟩ : BufTy).Contents (Elt F)),
    ternary main_v60 main_v67 main_v68 main_v69 ((fun x i u => Host.scatter scatter_S500_S50000x1_S50000_n_0_0_1 IntOp.addi x i u) : (⟨S500, .i32⟩ : BufTy).Contents (Elt F) → (⟨S50000x1, .i32⟩ : BufTy).Contents (Elt F) → (⟨S50000, .i32⟩ : BufTy).Contents (Elt F) → (⟨S500, .i32⟩ : BufTy).Contents (Elt F)) ]

/-- The readout, part 3: the counts' running sum (the callee's three operations, over the call's own buffers). -/
abbrev r3 : List (HloOp τ sig (Elt F)) :=
  [ TRef.nullary main_call3.call0.c (constantI S_ 32 0#32),
    TRef.unary main_call3.call0.c main_call3.call0.v0 (broadcastInDim S_ ![] bcast_S_S_),
    TRef.binary (.of main_v69) main_call3.call0.v0 main_call3.call0.v1 (fun x v => Host.reduceWindow IntOp.addi ![500] ![1] ![499] ![0] x v reduceWindows_S500_S500_w500s1p499_0 h_S_) ]

/-- The readout, part 4: the centre rows read out and mapped. -/
abbrev r4 : List (HloOp τ sig (Elt F)) :=
  [ binary main_v70 main_v69 main_v71 (subi : (⟨S500, .i32⟩ : BufTy).Contents (Elt F) → (⟨S500, .i32⟩ : BufTy).Contents (Elt F) → (⟨S500, .i32⟩ : BufTy).Contents (Elt F)),
    binary main_v71 main_arg3 main_v72 (addi : (⟨S500, .i32⟩ : BufTy).Contents (Elt F) → (⟨S500, .i32⟩ : BufTy).Contents (Elt F) → (⟨S500, .i32⟩ : BufTy).Contents (Elt F)),
    nullary main_c_15 (constantI S_ 32 0#32),
    unary main_c_15 main_v73 (broadcastInDim S500 ![] bcast_S_S500 : (⟨S_, .i32⟩ : BufTy).Contents (Elt F) → (⟨S500, .i32⟩ : BufTy).Contents (Elt F)),
    binary main_v72 main_v73 main_v74 (cmpi .slt : (⟨S500, .i32⟩ : BufTy).Contents (Elt F) → (⟨S500, .i32⟩ : BufTy).Contents (Elt F) → (⟨S500, .i1⟩ : BufTy).Contents (Elt F)),
    nullary main_c_16 (constantI S_ 32 50000#32),
    unary main_c_16 main_v75 (broadcastInDim S500 ![] bcast_S_S500 : (⟨S_, .i32⟩ : BufTy).Contents (Elt F) → (⟨S500, .i32⟩ : BufTy).Contents (Elt F)),
    binary main_v72 main_v75 main_v76 (addi : (⟨S500, .i32⟩ : BufTy).Contents (Elt F) → (⟨S500, .i32⟩ : BufTy).Contents (Elt F) → (⟨S500, .i32⟩ : BufTy).Contents (Elt F)),
    ternary main_v74 main_v76 main_v72 main_v77 (select : (⟨S500, .i1⟩ : BufTy).Contents (Elt F) → (⟨S500, .i32⟩ : BufTy).Contents (Elt F) → (⟨S500, .i32⟩ : BufTy).Contents (Elt F) → (⟨S500, .i32⟩ : BufTy).Contents (Elt F)),
    unary main_v77 main_v78 (broadcastInDim S500x1 ![0] bcast_S500_S500x1_0 : (⟨S500, .i32⟩ : BufTy).Contents (Elt F) → (⟨S500x1, .i32⟩ : BufTy).Contents (Elt F)),
    binary main_v59 main_v78 main_v79 ((fun x i => Host.gather gather_S50000x64_S500x1_S500x64_1_0_n_n_0_1_164 x i) : (⟨S50000x64, .f32⟩ : BufTy).Contents (Elt F) → (⟨S500x1, .i32⟩ : BufTy).Contents (Elt F) → (⟨S500x64, .f32⟩ : BufTy).Contents (Elt F)),
    unary main_arg10 main_v80 ((transpose S64x1 [1, 0] · transposes_S1x64_S64x1_1_0) : (⟨S1x64, .f32⟩ : BufTy).Contents (Elt F) → (⟨S64x1, .f32⟩ : BufTy).Contents (Elt F)),
    binary main_v79 main_v80 main_v81 ((fun l r => Host.dotGeneral dot_S500x64_S64x1_S500x1_1_0_0_1_n_n none l r) : (⟨S500x64, .f32⟩ : BufTy).Contents (Elt F) → (⟨S64x1, .f32⟩ : BufTy).Contents (Elt F) → (⟨S500x1, .f32⟩ : BufTy).Contents (Elt F)),
    unary main_arg11 main_v82 (broadcastInDim S1x1 ![1] bcast_S1_S1x1_1 : (⟨S1, .f32⟩ : BufTy).Contents (Elt F) → (⟨S1x1, .f32⟩ : BufTy).Contents (Elt F)),
    unary main_v82 main_v83 (broadcastInDim S500x1 ![0, 1] bcast_S1x1_S500x1_0_1 : (⟨S1x1, .f32⟩ : BufTy).Contents (Elt F) → (⟨S500x1, .f32⟩ : BufTy).Contents (Elt F)),
    binary main_v81 main_v83 main_v84 (addf : (⟨S500x1, .f32⟩ : BufTy).Contents (Elt F) → (⟨S500x1, .f32⟩ : BufTy).Contents (Elt F) → (⟨S500x1, .f32⟩ : BufTy).Contents (Elt F)),
    reshape main_v84 main_v85 rfl shapeCasts_S500x1_S500 ]

/-- @main's 113 operations, in order. -/
abbrev ops : List (HloOp τ sig (Elt F)) := ops1 ++ (ops2 ++ (r0 ++ (r1 ++ (r2 ++ (r3 ++ r4)))))

/-! ## What each stretch writes, and that it leaves every other buffer alone -/

/-- An operation whose one written buffer is in a list of references writes inside that list. -/
theorem singleton_sub {W : List (Ref sig .tc)} {y : Ref sig .tc} (h : y ∈ W) :
    ({(Proc.devRef .tc y : DevRef τ sig)} : Finset (DevRef τ sig)) ⊆ (W.map (Proc.devRef (τ := τ) .tc)).toFinset :=
  Finset.singleton_subset_iff.mpr (List.mem_toFinset.mpr (List.mem_map_of_mem h))

/-- The buffers the first layer's operations write, in order. -/
abbrev ops1_W : List (Ref sig .tc) :=
  [ main_v0, main_v1, main_v2, main_v3, main_c, main_v4, main_v5, main_c_0, main_v6, main_v7,
    main_v8, main_v9, main_v10, main_cst, main_v11, main_v12, main_v13, main_cst_1, main_v14, main_cst_2,
    main_v15, main_v16, main_v17, main_cst_3, main_v18, main_v19, main_v20, main_v21, main_v22, main_v23,
    main_v24, main_v25, main_v26, main_v27, main_v28, main_v29, main_v30, main_call0_cst, main_call0_v0, main_v31 ]
theorem ops1_writes : (ops1 : List (HloOp τ sig (Elt F))).Forall fun op =>
    op.writes ⊆ (ops1_W.map (Proc.devRef (τ := τ) .tc)).toFinset := by
  simp only [List.Forall, nullary_writes, unary_writes, binary_writes, ternary_writes, reshape_writes]
  and_intros <;> exact singleton_sub (by decide)
/-- A buffer `ops1` does not write keeps its contents through it. -/
theorem ops1_keep (V : Valuation τ sig (Elt F)) {r : Ref sig .tc} (h : r ∉ ops1_W) :
    after ops1 V (Proc.devRef .tc r) = V (Proc.devRef .tc r) := after_of_writes_sub ops1 V ops1_writes h

/-- The buffers the second layer's operations write, in order. -/
abbrev ops2_W : List (Ref sig .tc) :=
  [ main_c_4, main_v32, main_v33, main_c_5, main_v34, main_v35, main_v36, main_v37, main_v38, main_cst_6,
    main_v39, main_v40, main_v41, main_cst_7, main_v42, main_cst_8, main_v43, main_v44, main_v45, main_cst_9,
    main_v46, main_v47, main_v48, main_v49, main_v50, main_v51, main_v52, main_v53, main_v54, main_v55,
    main_v56, main_v57, main_v58, main_call1_cst, main_call1_v0, main_v59 ]
theorem ops2_writes : (ops2 : List (HloOp τ sig (Elt F))).Forall fun op =>
    op.writes ⊆ (ops2_W.map (Proc.devRef (τ := τ) .tc)).toFinset := by
  simp only [List.Forall, nullary_writes, unary_writes, binary_writes, ternary_writes, reshape_writes]
  and_intros <;> exact singleton_sub (by decide)
/-- A buffer `ops2` does not write keeps its contents through it. -/
theorem ops2_keep (V : Valuation τ sig (Elt F)) {r : Ref sig .tc} (h : r ∉ ops2_W) :
    after ops2 V (Proc.devRef .tc r) = V (Proc.devRef .tc r) := after_of_writes_sub ops2 V ops2_writes h

/-- The buffers part 0 of the readout writes, in order. -/
abbrev r0_W : List (Ref sig .tc) :=
  [ main_c_10, main_v60, main_c_11 ]
theorem r0_writes : (r0 : List (HloOp τ sig (Elt F))).Forall fun op =>
    op.writes ⊆ (r0_W.map (Proc.devRef (τ := τ) .tc)).toFinset := by
  simp only [List.Forall, nullary_writes, unary_writes, binary_writes, ternary_writes, reshape_writes]
  and_intros <;> exact singleton_sub (by decide)
/-- A buffer `r0` does not write keeps its contents through it. -/
theorem r0_keep (V : Valuation τ sig (Elt F)) {r : Ref sig .tc} (h : r ∉ r0_W) :
    after r0 V (Proc.devRef .tc r) = V (Proc.devRef .tc r) := after_of_writes_sub r0 V r0_writes h

/-- The buffers part 1 of the readout writes, in order. -/
abbrev r1_W : List (Ref sig .tc) :=
  [ main_call2_v0, main_call2_v1, main_v61 ]
theorem r1_writes : (r1 : List (HloOp τ sig (Elt F))).Forall fun op =>
    op.writes ⊆ (r1_W.map (Proc.devRef (τ := τ) .tc)).toFinset := by
  simp only [List.Forall, nullary_writes, unary_writes, binary_writes, ternary_writes, reshape_writes]
  and_intros <;> exact singleton_sub (by decide)
/-- A buffer `r1` does not write keeps its contents through it. -/
theorem r1_keep (V : Valuation τ sig (Elt F)) {r : Ref sig .tc} (h : r ∉ r1_W) :
    after r1 V (Proc.devRef .tc r) = V (Proc.devRef .tc r) := after_of_writes_sub r1 V r1_writes h

/-- The buffers part 2 of the readout writes, in order. -/
abbrev r2_W : List (Ref sig .tc) :=
  [ main_c_12, main_v62, main_v63, main_c_13, main_v64, main_v65, main_v66, main_v67, main_c_14, main_v68,
    main_v69 ]
theorem r2_writes : (r2 : List (HloOp τ sig (Elt F))).Forall fun op =>
    op.writes ⊆ (r2_W.map (Proc.devRef (τ := τ) .tc)).toFinset := by
  simp only [List.Forall, nullary_writes, unary_writes, binary_writes, ternary_writes, reshape_writes]
  and_intros <;> exact singleton_sub (by decide)
/-- A buffer `r2` does not write keeps its contents through it. -/
theorem r2_keep (V : Valuation τ sig (Elt F)) {r : Ref sig .tc} (h : r ∉ r2_W) :
    after r2 V (Proc.devRef .tc r) = V (Proc.devRef .tc r) := after_of_writes_sub r2 V r2_writes h

/-- The buffers part 3 of the readout writes, in order. -/
abbrev r3_W : List (Ref sig .tc) :=
  [ main_call3_call0_c, main_call3_call0_v0, main_v70 ]
theorem r3_writes : (r3 : List (HloOp τ sig (Elt F))).Forall fun op =>
    op.writes ⊆ (r3_W.map (Proc.devRef (τ := τ) .tc)).toFinset := by
  simp only [List.Forall, nullary_writes, unary_writes, binary_writes, ternary_writes, reshape_writes]
  and_intros <;> exact singleton_sub (by decide)
/-- A buffer `r3` does not write keeps its contents through it. -/
theorem r3_keep (V : Valuation τ sig (Elt F)) {r : Ref sig .tc} (h : r ∉ r3_W) :
    after r3 V (Proc.devRef .tc r) = V (Proc.devRef .tc r) := after_of_writes_sub r3 V r3_writes h

/-- The buffers part 4 of the readout writes, in order. -/
abbrev r4_W : List (Ref sig .tc) :=
  [ main_v71, main_v72, main_c_15, main_v73, main_v74, main_c_16, main_v75, main_v76, main_v77, main_v78,
    main_v79, main_v80, main_v81, main_v82, main_v83, main_v84, main_v85 ]
theorem r4_writes : (r4 : List (HloOp τ sig (Elt F))).Forall fun op =>
    op.writes ⊆ (r4_W.map (Proc.devRef (τ := τ) .tc)).toFinset := by
  simp only [List.Forall, nullary_writes, unary_writes, binary_writes, ternary_writes, reshape_writes]
  and_intros <;> exact singleton_sub (by decide)
/-- A buffer `r4` does not write keeps its contents through it. -/
theorem r4_keep (V : Valuation τ sig (Elt F)) {r : Ref sig .tc} (h : r ∉ r4_W) :
    after r4 V (Proc.devRef .tc r) = V (Proc.devRef .tc r) := after_of_writes_sub r4 V r4_writes h

/-! ## The two layers -/

section Layers
attribute [local irreducible] Host.gather Host.scatter Host.scatterAdd Host.reduceWindow

/-- The first layer's result is `layer` of the node features, the edge list and the first layer's three parameters. -/
theorem ops1_v31 (V : Valuation τ sig (Elt F)) :
    after ops1 V (Proc.devRef .tc main_v31)
      = layer (V (Proc.devRef .tc main_arg0)) (V (Proc.devRef .tc main_arg1)) (V (Proc.devRef .tc main_arg4)) (V (Proc.devRef .tc main_arg5)) (V (Proc.devRef .tc main_arg6)) := by
  after_results_simp
  rfl

/-- The first layer leaves the edges' sources in `main_v1`. -/
theorem ops1_v1 (V : Valuation τ sig (Elt F)) : after ops1 V (Proc.devRef .tc main_v1) = src (V (Proc.devRef .tc main_arg1)) := by
  after_results_simp
  rfl

/-- The first layer leaves the edges' targets in `main_v3`. -/
theorem ops1_v3 (V : Valuation τ sig (Elt F)) : after ops1 V (Proc.devRef .tc main_v3) = dst (V (Proc.devRef .tc main_arg1)) := by
  after_results_simp
  rfl

/-- The second layer, run from contents holding the edges' sources and targets where the first layer left them, is
    `layer` of the first layer's result, the edge list and the second layer's three parameters. -/
theorem ops2_v59 (W : Valuation τ sig (Elt F)) (e : (⟨S2x800000, .i32⟩ : BufTy).Contents (Elt F))
    (h1 : W (Proc.devRef .tc main_v1) = src e) (h3 : W (Proc.devRef .tc main_v3) = dst e) :
    after ops2 W (Proc.devRef .tc main_v59)
      = layer (W (Proc.devRef .tc main_v31)) e (W (Proc.devRef .tc main_arg7)) (W (Proc.devRef .tc main_arg8)) (W (Proc.devRef .tc main_arg9)) := by
  after_results_simp
  rw [h1, h3]
  rfl

end Layers

/-! ## The readout, one stretch at a time

The two callees' operations read and write through the call records' typed references, whose transport of contents is
the identity at these literal buffers; each is read on its own three operations over arbitrary contents, so that the
identity is only ever asked of a buffer's contents and never of a whole windowed sum or scatter. -/

section Readout
attribute [local irreducible] Host.reduceWindow Host.scatter Host.gather

variable (V : Valuation τ sig (Elt F))

theorem r0_v60 : after r0 V (Proc.devRef .tc main_v60) = broadcastInDim S500 ![] bcast_S_S500 (constantI S_ 32 0#32) := by
  after_results_simp
theorem r0_c11 : after r0 V (Proc.devRef .tc main_c_11) = constantI S_ 32 0#32 := by
  after_results_simp

/-- The graph ids clipped below at the scalar in `main_c_11`. -/
theorem r1_v61 : after r1 V (Proc.devRef .tc main_v61)
    = maxsi (broadcastInDim S50000 ![] bcast_S_S50000 (id (V (Proc.devRef .tc main_c_11)))) (V (Proc.devRef .tc main_arg2)) := by
  after_results_simp
  rfl

/-- The graphs' node counts: ones summed, from `main_v60`, at the clipped ids (a negative one wrapped by 500). -/
theorem r2_v69 : after r2 V (Proc.devRef .tc main_v69)
    = Host.scatter scatter_S500_S50000x1_S50000_n_0_0_1 IntOp.addi (V (Proc.devRef .tc main_v60))
        (broadcastInDim S50000x1 ![0] bcast_S50000_S50000x1_0
          (select (cmpi .slt (V (Proc.devRef .tc main_v61)) (broadcastInDim S50000 ![] bcast_S_S50000 (constantI S_ 32 0#32)))
            (addi (V (Proc.devRef .tc main_v61)) (broadcastInDim S50000 ![] bcast_S_S50000 (constantI S_ 32 500#32)))
            (V (Proc.devRef .tc main_v61))))
        (broadcastInDim S50000 ![] bcast_S_S50000 (constantI S_ 32 1#32)) := by
  after_results_simp

/-- The counts' running sum. -/
theorem r3_v70 : after r3 V (Proc.devRef .tc main_v70)
    = Host.reduceWindow IntOp.addi ![500] ![1] ![499] ![0] (V (Proc.devRef .tc main_v69))
        (broadcastInDim S_ ![] bcast_S_S_ (constantI S_ 32 0#32)) reduceWindows_S500_S500_w500s1p499_0 h_S_ := by
  after_results_simp
  rfl

/-- The result from the running sum, the counts, the centre positions, the second layer's rows and the two parameters. -/
theorem r4_v85 : after r4 V (Proc.devRef .tc main_v85)
    = shapeCast S500
        (addf
          (Host.dotGeneral dot_S500x64_S64x1_S500x1_1_0_0_1_n_n none
            (Host.gather gather_S50000x64_S500x1_S500x64_1_0_n_n_0_1_164 (V (Proc.devRef .tc main_v59))
              (broadcastInDim S500x1 ![0] bcast_S500_S500x1_0
                (select (cmpi .slt (addi (subi (V (Proc.devRef .tc main_v70)) (V (Proc.devRef .tc main_v69))) (V (Proc.devRef .tc main_arg3))) (broadcastInDim S500 ![] bcast_S_S500 (constantI S_ 32 0#32)))
                  (addi (addi (subi (V (Proc.devRef .tc main_v70)) (V (Proc.devRef .tc main_v69))) (V (Proc.devRef .tc main_arg3))) (broadcastInDim S500 ![] bcast_S_S500 (constantI S_ 32 50000#32)))
                  (addi (subi (V (Proc.devRef .tc main_v70)) (V (Proc.devRef .tc main_v69))) (V (Proc.devRef .tc main_arg3))))))
            (transpose S64x1 [1, 0] (V (Proc.devRef .tc main_arg10)) transposes_S1x64_S64x1_1_0))
          (broadcastInDim S500x1 ![0, 1] bcast_S1x1_S500x1_0_1 (broadcastInDim S1x1 ![1] bcast_S1_S1x1_1 (V (Proc.devRef .tc main_arg11)))))
        shapeCasts_S500x1_S500 := by
  after_results_simp
  rfl

/-- The five stretches together: `readout` of the second layer's result, the graph ids, the centre positions and the
    readout's two parameters. -/
theorem readout_v85 : after r4 (after r3 (after r2 (after r1 (after r0 V)))) (Proc.devRef .tc main_v85)
    = readout (V (Proc.devRef .tc main_v59)) (V (Proc.devRef .tc main_arg2)) (V (Proc.devRef .tc main_arg3)) (V (Proc.devRef .tc main_arg10)) (V (Proc.devRef .tc main_arg11)) := by
  rw [r4_v85, r3_v70,
    r3_keep _ (r := main_v69) (by decide), r3_keep _ (r := main_v59) (by decide), r3_keep _ (r := main_arg3) (by decide),
    r3_keep _ (r := main_arg10) (by decide), r3_keep _ (r := main_arg11) (by decide),
    r2_v69,
    r2_keep _ (r := main_v59) (by decide), r2_keep _ (r := main_arg3) (by decide),
    r2_keep _ (r := main_arg10) (by decide), r2_keep _ (r := main_arg11) (by decide),
    r1_v61,
    r1_keep _ (r := main_v60) (by decide), r1_keep _ (r := main_v59) (by decide), r1_keep _ (r := main_arg3) (by decide),
    r1_keep _ (r := main_arg10) (by decide), r1_keep _ (r := main_arg11) (by decide),
    r0_v60, r0_c11,
    r0_keep _ (r := main_arg2) (by decide), r0_keep _ (r := main_v59) (by decide), r0_keep _ (r := main_arg3) (by decide),
    r0_keep _ (r := main_arg10) (by decide), r0_keep _ (r := main_arg11) (by decide)]
  rfl

end Readout

/-! ## The whole line -/

-- a chain of one hundred and thirteen steps: re-associating it goes as deep as the chain is long
set_option maxRecDepth 4096 in
set_option maxHeartbeats 4000000 in
/-- @main is that straight line: the two windows, the callees' definitions unfolded at their calls and the records at
    their fields; both sides are one chain of operation steps once sequencing is re-associated. -/
theorem main_eq (c : Dev nD) : main (F := F) c = seq ops := by
  simp only [main, main_part0, main_part1, fn_relu.body, fn_clip.body, fn_cumsum.body, fn_cumsum_0.body, seq, bind_assoc, pure_bind]
  rfl

theorem scopedRefs_eq : (Finset.univ.filter fun b : Ref sig .tc => b.isScoped) = ∅ := by decide
theorem scopedSems_eq : (Finset.univ.filter fun sm : SemLoc sig => sm.isScoped .tc) = ∅ := by decide

theorem ops1_sub : (ops1 : List (HloOp τ sig (Elt F))).Forall fun op => op.bufs ⊆ tcRefs τ sig :=
  ⟨unary_bufs_sub .., reshape_bufs_sub .., unary_bufs_sub .., reshape_bufs_sub .., nullary_bufs_sub .., unary_bufs_sub ..,
    binary_bufs_sub .., nullary_bufs_sub .., unary_bufs_sub .., binary_bufs_sub .., ternary_bufs_sub .., unary_bufs_sub ..,
    binary_bufs_sub .., nullary_bufs_sub .., unary_bufs_sub .., unary_bufs_sub .., ternary_bufs_sub .., nullary_bufs_sub ..,
    unary_bufs_sub .., nullary_bufs_sub .., unary_bufs_sub .., unary_bufs_sub .., ternary_bufs_sub .., nullary_bufs_sub ..,
    unary_bufs_sub .., binary_bufs_sub .., unary_bufs_sub .., unary_bufs_sub .., binary_bufs_sub .., unary_bufs_sub ..,
    binary_bufs_sub .., unary_bufs_sub .., unary_bufs_sub .., binary_bufs_sub .., unary_bufs_sub .., binary_bufs_sub ..,
    binary_bufs_sub .., nullary_bufs_sub .., unary_bufs_sub .., binary_bufs_sub ..⟩
theorem ops2_sub : (ops2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., binary_bufs_sub .., nullary_bufs_sub .., unary_bufs_sub .., unary_bufs_sub ..,
    ternary_bufs_sub .., nullary_bufs_sub .., unary_bufs_sub .., nullary_bufs_sub .., unary_bufs_sub .., unary_bufs_sub ..,
    ternary_bufs_sub .., nullary_bufs_sub .., unary_bufs_sub .., binary_bufs_sub .., unary_bufs_sub .., unary_bufs_sub ..,
    binary_bufs_sub .., unary_bufs_sub .., binary_bufs_sub .., unary_bufs_sub .., unary_bufs_sub .., binary_bufs_sub ..,
    unary_bufs_sub .., binary_bufs_sub .., binary_bufs_sub .., nullary_bufs_sub .., unary_bufs_sub .., binary_bufs_sub ..⟩
theorem r0_sub : (r0 : List (HloOp τ sig (Elt F))).Forall fun op => op.bufs ⊆ tcRefs τ sig :=
  ⟨nullary_bufs_sub .., unary_bufs_sub .., nullary_bufs_sub ..⟩
theorem r1_sub : (r1 : List (HloOp τ sig (Elt F))).Forall fun op => op.bufs ⊆ tcRefs τ sig :=
  ⟨unary_bufs_sub .., unary_bufs_sub .., binary_bufs_sub ..⟩
theorem r2_sub : (r2 : List (HloOp τ sig (Elt F))).Forall fun op => op.bufs ⊆ tcRefs τ sig :=
  ⟨nullary_bufs_sub .., unary_bufs_sub .., binary_bufs_sub .., nullary_bufs_sub .., unary_bufs_sub .., binary_bufs_sub ..,
    ternary_bufs_sub .., unary_bufs_sub .., nullary_bufs_sub .., unary_bufs_sub .., ternary_bufs_sub ..⟩
theorem r3_sub : (r3 : List (HloOp τ sig (Elt F))).Forall fun op => op.bufs ⊆ tcRefs τ sig :=
  ⟨nullary_bufs_sub .., unary_bufs_sub .., binary_bufs_sub ..⟩
theorem r4_sub : (r4 : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., ternary_bufs_sub .., unary_bufs_sub .., binary_bufs_sub .., unary_bufs_sub ..,
    binary_bufs_sub .., unary_bufs_sub .., unary_bufs_sub .., binary_bufs_sub .., reshape_bufs_sub ..⟩

/-- Every operation's buffers are the TensorCore's. -/
theorem ops_sub : (ops : List (HloOp τ sig (Elt F))).Forall fun op => op.bufs ⊆ tcRefs τ sig :=
  List.forall_append.mpr ⟨ops1_sub, List.forall_append.mpr ⟨ops2_sub, List.forall_append.mpr ⟨r0_sub, List.forall_append.mpr ⟨r1_sub, List.forall_append.mpr ⟨r2_sub, List.forall_append.mpr ⟨r3_sub, r4_sub⟩⟩⟩⟩⟩⟩

theorem ops1_fresh : (ops1 : List (HloOp τ sig (Elt F))).Forall fun op => op.fresh = ∅ := by
  simp only [List.Forall]
  and_intros <;> rfl
theorem ops2_fresh : (ops2 : List (HloOp τ sig (Elt F))).Forall fun op => op.fresh = ∅ := by
  simp only [List.Forall]
  and_intros <;> rfl
theorem r0_fresh : (r0 : List (HloOp τ sig (Elt F))).Forall fun op => op.fresh = ∅ := by
  simp only [List.Forall]
  and_intros <;> rfl
theorem r1_fresh : (r1 : List (HloOp τ sig (Elt F))).Forall fun op => op.fresh = ∅ := by
  simp only [List.Forall]
  and_intros <;> rfl
theorem r2_fresh : (r2 : List (HloOp τ sig (Elt F))).Forall fun op => op.fresh = ∅ := by
  simp only [List.Forall]
  and_intros <;> rfl
theorem r3_fresh : (r3 : List (HloOp τ sig (Elt F))).Forall fun op => op.fresh = ∅ := by
  simp only [List.Forall]
  and_intros <;> rfl
theorem r4_fresh : (r4 : List (HloOp τ sig (Elt F))).Forall fun op => op.fresh = ∅ := by
  simp only [List.Forall]
  and_intros <;> rfl

/-- Every operation determines its results. -/
theorem ops_fresh : ∀ op ∈ (ops : List (HloOp τ sig (Elt F))), op.fresh = ∅ :=
  List.forall_iff_forall_mem.mp (List.forall_append.mpr ⟨ops1_fresh, List.forall_append.mpr ⟨ops2_fresh, List.forall_append.mpr ⟨r0_fresh, List.forall_append.mpr ⟨r1_fresh, List.forall_append.mpr ⟨r2_fresh, List.forall_append.mpr ⟨r3_fresh, r4_fresh⟩⟩⟩⟩⟩⟩)

/-- The result buffer after the whole line is `out` of the twelve arguments. -/
theorem ops_v85 (V : Valuation τ sig (Elt F)) :
    after ops V (Proc.devRef .tc main_v85)
      = out (V (Proc.devRef .tc main_arg0)) (V (Proc.devRef .tc main_arg1)) (V (Proc.devRef .tc main_arg2)) (V (Proc.devRef .tc main_arg3))
          (V (Proc.devRef .tc main_arg4)) (V (Proc.devRef .tc main_arg5)) (V (Proc.devRef .tc main_arg6)) (V (Proc.devRef .tc main_arg7))
          (V (Proc.devRef .tc main_arg8)) (V (Proc.devRef .tc main_arg9)) (V (Proc.devRef .tc main_arg10)) (V (Proc.devRef .tc main_arg11)) := by
  simp only [ops, after_append]
  rw [readout_v85, ops2_v59 (after ops1 V) (V (Proc.devRef .tc main_arg1)) (ops1_v1 V) (ops1_v3 V),
    ops2_keep _ (r := main_arg2) (by decide), ops2_keep _ (r := main_arg3) (by decide),
    ops2_keep _ (r := main_arg10) (by decide), ops2_keep _ (r := main_arg11) (by decide),
    ops1_v31,
    ops1_keep _ (r := main_arg7) (by decide), ops1_keep _ (r := main_arg8) (by decide), ops1_keep _ (r := main_arg9) (by decide),
    ops1_keep _ (r := main_arg2) (by decide), ops1_keep _ (r := main_arg3) (by decide),
    ops1_keep _ (r := main_arg10) (by decide), ops1_keep _ (r := main_arg11) (by decide)]
  rfl

/-- A buffer no stretch writes keeps its contents through the whole line. -/
theorem ops_keep (V : Valuation τ sig (Elt F)) {r : Ref sig .tc} (h1 : r ∉ ops1_W) (h2 : r ∉ ops2_W)
    (g0 : r ∉ r0_W) (g1 : r ∉ r1_W) (g2 : r ∉ r2_W) (g3 : r ∉ r3_W) (g4 : r ∉ r4_W) :
    after ops V (Proc.devRef .tc r) = V (Proc.devRef .tc r) := by
  simp only [ops, after_append]
  rw [r4_keep _ g4, r3_keep _ g3, r2_keep _ g2, r1_keep _ g1, r0_keep _ g0, ops2_keep _ h2, ops1_keep _ h1]

/-- On every device, from any memory with zero counters: every weakly fair execution of the reference's @main terminates
    with the result buffer at `out` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v85) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v85).trans (ops_v85 _),
      (h c main_arg0).trans (ops_keep _ (by decide) (by decide) (by decide) (by decide) (by decide) (by decide) (by decide)),
      (h c main_arg1).trans (ops_keep _ (by decide) (by decide) (by decide) (by decide) (by decide) (by decide) (by decide)),
      (h c main_arg2).trans (ops_keep _ (by decide) (by decide) (by decide) (by decide) (by decide) (by decide) (by decide)),
      (h c main_arg3).trans (ops_keep _ (by decide) (by decide) (by decide) (by decide) (by decide) (by decide) (by decide)),
      (h c main_arg4).trans (ops_keep _ (by decide) (by decide) (by decide) (by decide) (by decide) (by decide) (by decide)),
      (h c main_arg5).trans (ops_keep _ (by decide) (by decide) (by decide) (by decide) (by decide) (by decide) (by decide)),
      (h c main_arg6).trans (ops_keep _ (by decide) (by decide) (by decide) (by decide) (by decide) (by decide) (by decide)),
      (h c main_arg7).trans (ops_keep _ (by decide) (by decide) (by decide) (by decide) (by decide) (by decide) (by decide)),
      (h c main_arg8).trans (ops_keep _ (by decide) (by decide) (by decide) (by decide) (by decide) (by decide) (by decide)),
      (h c main_arg9).trans (ops_keep _ (by decide) (by decide) (by decide) (by decide) (by decide) (by decide) (by decide)),
      (h c main_arg10).trans (ops_keep _ (by decide) (by decide) (by decide) (by decide) (by decide) (by decide) (by decide)),
      (h c main_arg11).trans (ops_keep _ (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.Bridge.lean ====
/-
  The two programs' stages are the same functions on the extended reals.

  * The neighbour mean: the kernel program scales the aggregate by the reciprocal 1 / max(count, 1) where the reference
    divides by max(count, 1). On the extended reals `a · (1 / d) = a / d` whenever `d ≠ 0` (at the infinities too, the
    quotient being the product with the inverse), and `max(count, 1) ≥ 1 > 0` whatever the count.
  * The dense part: the tiled regions' result `Spec.dense` adds the two products first and the bias last, the reference
    the first product, the bias, then the second product; sums of extended reals may be regrouped and reordered. A
    product with the transposed weights reads `∑ k, a (r, k) · W (j, k)` on both sides.
  * A change of float format is the identity.
-/
import proofs.«416269_j79869211837021_3_alg».proof.Proof.KValue
import proofs.«416269_j79869211837021_3_alg».proof.Proof.RefValue
import proofs.«416269_j79869211837021_3_alg».proof.Proof.Spec
import proofs.«416269_j79869211837021_3_alg».proof.Proof.LibPlainDot
import Idealize.ShloMosaic.Lib.Pipeline.Value
import Idealize.ShloMosaic.Lib.ValueIdx
import Idealize.ShloMosaic.PureOps.IdealRules
import Idealize.ShloMosaic.PureOps.Ideal.Laws

noncomputable section

namespace Cert.Bridge

open Idealize.ShloMosaic Idealize.ShloMosaic.ValueIdx

/-! ## Scalars -/

/-- The word of 1.0 reads 1. -/
theorem one_f32 : Ideal.ofBits .f32 0x3F800000#32 = 1 := IdealRules.sign_bit.ideal_onePat .f32

/-- Scaling by the reciprocal of a nonzero extended real is dividing by it. -/
theorem mul_recip (a d : EReal) (hd : d ≠ 0) : a * Ideal.div 1 d = Ideal.div a d := by
  unfold Ideal.div
  rw [if_neg hd, if_neg hd, one_mul]

/-- A count floored at one is not zero. -/
theorem max_one_ne_zero (x : EReal) : max x 1 ≠ 0 :=
  (lt_of_lt_of_le zero_lt_one (le_max_right x 1)).ne'

/-! ## A column along the rows -/

/-- A column [50000, 1] broadcast along the rows reads, at (r, q), the column's entry r. -/
theorem colBcast_apply (h : (⟨2, ![50000, 1]⟩ : Shape).BroadcastsInDim ⟨2, ![50000, 64]⟩ ![0, 1])
    (v : (⟨2, ![50000, 1]⟩ : Shape).Idx → EReal) (r : Fin 50000) (q : Fin 64) :
    broadcastInDim ⟨2, ![50000, 64]⟩ ![0, 1] h v (ix2 r q) = v (ix2 r (0 : Fin 1)) :=
  broadcastInDim_apply _ h v _ _ fun a => by
    match a with
    | ⟨0, _⟩ => exact (if_neg (show ¬ ((50000 : ℕ) = 1) by decide)).symm
    | ⟨1, _⟩ => exact (if_pos rfl).symm

/-- A vector [50000] made a column by a broadcast reads, at (r, 0), the vector's entry r. -/
theorem vecCol_apply (h : (⟨1, ![50000]⟩ : Shape).BroadcastsInDim ⟨2, ![50000, 1]⟩ ![0])
    (d : (⟨1, ![50000]⟩ : Shape).Idx → EReal) (r : Fin 50000) :
    broadcastInDim ⟨2, ![50000, 1]⟩ ![0] h d (ix2 r (0 : Fin 1)) = d (ix1 r) :=
  broadcastInDim_apply _ h d _ _ fun a => by
    match a with
    | ⟨0, _⟩ => exact (if_neg (show ¬ ((50000 : ℕ) = 1) by decide)).symm

/-- A vector [50000] made a column by a reshape reads, at (r, 0), the vector's entry r. -/
theorem vecReshape_apply (h : (⟨1, ![50000]⟩ : Shape).ShapeCasts ⟨2, ![50000, 1]⟩)
    (d : (⟨1, ![50000]⟩ : Shape).Idx → EReal) (r : Fin 50000) :
    shapeCast ⟨2, ![50000, 1]⟩ d h (ix2 r (0 : Fin 1)) = d (ix1 r) :=
  shapeCast_apply d h _ _ (by
    rw [Shape.rowMajor_val_one, Shape.rowMajor_val_two]
    show r.val = r.val * 1 + 0
    omega)

/-! ## The neighbour mean -/

/-- An aggregate scaled row by row by the reciprocals of a nowhere-zero column is the aggregate divided by it. -/
theorem scale_eq_div (A : FVec Ideal ⟨2, ![50000, 64]⟩ .f32) (ones dm : FVec Ideal ⟨1, ![50000]⟩ .f32)
    (hones : ∀ p, ones p = 1) (hdm : ∀ p, dm p ≠ 0)
    (h2 h2' : (⟨2, ![50000, 1]⟩ : Shape).BroadcastsInDim ⟨2, ![50000, 64]⟩ ![0, 1])
    (hs : (⟨1, ![50000]⟩ : Shape).ShapeCasts ⟨2, ![50000, 1]⟩)
    (h1 : (⟨1, ![50000]⟩ : Shape).BroadcastsInDim ⟨2, ![50000, 1]⟩ ![0]) :
    mulf A (broadcastInDim ⟨2, ![50000, 64]⟩ ![0, 1] h2 (shapeCast ⟨2, ![50000, 1]⟩ (Host.divf ones dm) hs))
      = Host.divf A (broadcastInDim ⟨2, ![50000, 64]⟩ ![0, 1] h2' (broadcastInDim ⟨2, ![50000, 1]⟩ ![0] h1 dm)) := by
  funext j
  obtain ⟨r, q, rfl⟩ : ∃ (r : Fin 50000) (q : Fin 64), j = ix2 r q := ⟨j 0, j 1, eq_ix2 j⟩
  show A (ix2 r q) * broadcastInDim _ _ h2 (shapeCast _ (Host.divf ones dm) hs) (ix2 r q)
    = Ideal.div (A (ix2 r q)) (broadcastInDim _ _ h2' (broadcastInDim _ _ h1 dm) (ix2 r q))
  rw [colBcast_apply, vecReshape_apply, colBcast_apply, vecCol_apply]
  show A (ix2 r q) * Ideal.div (ones (ix1 r)) (dm (ix1 r)) = _
  rw [hones, mul_recip _ _ (hdm _)]

/-- A broadcast scalar reads the scalar everywhere. -/
theorem scalarBcast_apply {t : Shape} (h : (⟨0, ![]⟩ : Shape).BroadcastsInDim t ![]) (v : (⟨0, ![]⟩ : Shape).Idx → EReal)
    (j : t.Idx) : broadcastInDim t ![] h v j = v ix0 :=
  broadcastInDim_apply _ h v _ _ fun a => a.elim0

end Cert.Bridge

end
-- ==== Proof.BridgeMean.lean ====
/-
  The neighbour mean of the two programs is one function: the edge indices, the aggregate and the floored counts are
  the same host operations in both programs, and scaling by the reciprocal of the floored count is dividing by it.
-/
import proofs.«416269_j79869211837021_3_alg».proof.Proof.Bridge

noncomputable section

namespace Cert.Bridge

open Idealize.ShloMosaic Idealize.ShloMosaic.ValueIdx

/-! ## The shared index columns -/

theorem dst_eq (e : (⟨Cert.KernelIdeal.S2x800000, .i32⟩ : BufTy).Contents (Elt Ideal)) :
    Cert.KernelIdeal.Hand.dst (F := Ideal) e = Cert.ReferenceIdeal.Hand.dst (F := Ideal) e := rfl

theorem src_eq (e : (⟨Cert.KernelIdeal.S2x800000, .i32⟩ : BufTy).Contents (Elt Ideal)) :
    Cert.KernelIdeal.Hand.src (F := Ideal) e = Cert.ReferenceIdeal.Hand.src (F := Ideal) e := rfl

theorem col_eq (e : (⟨Cert.KernelIdeal.S2x800000, .i32⟩ : BufTy).Contents (Elt Ideal)) :
    Cert.KernelIdeal.Hand.col (F := Ideal) (Cert.KernelIdeal.Hand.dst (F := Ideal) e) = Cert.ReferenceIdeal.Hand.dstIdx (F := Ideal) e := rfl

theorem wrapCol_eq (e : (⟨Cert.KernelIdeal.S2x800000, .i32⟩ : BufTy).Contents (Elt Ideal)) :
    Cert.KernelIdeal.Hand.wrapCol (F := Ideal) (Cert.KernelIdeal.Hand.src (F := Ideal) e) = Cert.ReferenceIdeal.Hand.srcIdx (F := Ideal) e := rfl

/-! ## The shared aggregates -/

section
attribute [local irreducible] Host.scatterAdd Host.gather

/-- The rows summed into the targets: one operation in both programs. -/
theorem aggRec_eq (msg : (⟨Cert.KernelIdeal.S800000x64, .f32⟩ : BufTy).Contents (Elt Ideal))
    (idx : (⟨Cert.KernelIdeal.S800000x1, .i32⟩ : BufTy).Contents (Elt Ideal)) :
    Host.scatterAdd Cert.KernelIdeal.scatter_S50000x64_S800000x1_S800000x64_1_0_0_1
      (broadcastInDim Cert.KernelIdeal.S50000x64 ![] Cert.KernelIdeal.Gen.bcast_S_S50000x64 (constant (F := Ideal) Cert.KernelIdeal.S_ .f32 0x00000000#32))
      idx msg
    = Host.scatterAdd Cert.ReferenceIdeal.scatter_S50000x64_S800000x1_S800000x64_1_0_0_1
        (broadcastInDim Cert.ReferenceIdeal.S50000x64 ![] Cert.ReferenceIdeal.Gen.bcast_S_S50000x64 (constant (F := Ideal) Cert.ReferenceIdeal.S_ .f32 0x00000000#32))
        idx msg := rfl

/-- The floored counts: one operation in both programs. -/
theorem dmax_eq (e : (⟨Cert.KernelIdeal.S2x800000, .i32⟩ : BufTy).Contents (Elt Ideal)) :
    maximumf
        (Host.scatterAdd Cert.KernelIdeal.scatter_S50000_S800000x1_S800000_n_0_0_1
          (broadcastInDim Cert.KernelIdeal.S50000 ![] Cert.KernelIdeal.Gen.bcast_S_S50000 (constant (F := Ideal) Cert.KernelIdeal.S_ .f32 0x00000000#32))
          (Cert.KernelIdeal.Hand.col (F := Ideal) (Cert.KernelIdeal.Hand.dst (F := Ideal) e))
          (broadcastInDim Cert.KernelIdeal.S800000 ![] Cert.KernelIdeal.Gen.bcast_S_S800000 (constant (F := Ideal) Cert.KernelIdeal.S_ .f32 0x3F800000#32)))
        (broadcastInDim Cert.KernelIdeal.S50000 ![] Cert.KernelIdeal.Gen.bcast_S_S50000 (constant (F := Ideal) Cert.KernelIdeal.S_ .f32 0x3F800000#32))
      = Cert.ReferenceIdeal.Hand.degMax (F := Ideal) e := rfl

/-- The rows gathered at a column of indices: one operation in both programs. -/
theorem gatherRec_eq (x : (⟨Cert.KernelIdeal.S50000x64, .f32⟩ : BufTy).Contents (Elt Ideal))
    (idx : (⟨Cert.KernelIdeal.S800000x1, .i32⟩ : BufTy).Contents (Elt Ideal)) :
    Host.gather Cert.KernelIdeal.gather_S50000x64_S800000x1_S800000x64_1_0_n_n_0_1_164 x idx
      = Host.gather Cert.ReferenceIdeal.gather_S50000x64_S800000x1_S800000x64_1_0_n_n_0_1_164 x idx := rfl

/-- The same for rows kept in the narrow format. -/
theorem gatherRec_eq_bf16 (x : (⟨Cert.KernelIdeal.S50000x64, .bf16⟩ : BufTy).Contents (Elt Ideal))
    (idx : (⟨Cert.KernelIdeal.S800000x1, .i32⟩ : BufTy).Contents (Elt Ideal)) :
    Host.gather Cert.KernelIdeal.gather_S50000x64_S800000x1_S800000x64_1_0_n_n_0_1_164 x idx
      = Host.gather Cert.ReferenceIdeal.gather_S50000x64_S800000x1_S800000x64_1_0_n_n_0_1_164 x idx := rfl

end

/-! ## The mean -/

/-- A broadcast 1.0 reads 1 everywhere. -/
theorem ones_apply (h : (⟨0, ![]⟩ : Shape).BroadcastsInDim ⟨1, ![50000]⟩ ![]) (p : (⟨1, ![50000]⟩ : Shape).Idx) :
    broadcastInDim (⟨1, ![50000]⟩ : Shape) ![] h (constant (F := Ideal) ⟨0, ![]⟩ .f32 0x3F800000#32) p = 1 := by
  rw [scalarBcast_apply]; exact one_f32

/-- Counts floored at 1.0 vanish nowhere, whatever the counts. -/
theorem maxOnes_ne_zero (X : FVec Ideal ⟨1, ![50000]⟩ .f32) (h : (⟨0, ![]⟩ : Shape).BroadcastsInDim ⟨1, ![50000]⟩ ![])
    (p : (⟨1, ![50000]⟩ : Shape).Idx) :
    maximumf X (broadcastInDim (⟨1, ![50000]⟩ : Shape) ![] h (constant (F := Ideal) ⟨0, ![]⟩ .f32 0x3F800000#32)) p ≠ 0 := by
  show max _ (broadcastInDim _ _ _ _ p) ≠ 0
  rw [scalarBcast_apply]
  show max _ (Ideal.ofBits .f32 0x3F800000#32) ≠ 0
  rw [one_f32]
  exact max_one_ne_zero _

/-- The reference's floored counts vanish nowhere (the counts themselves are never looked at). -/
theorem degMax_ne_zero (e : (⟨Cert.ReferenceIdeal.S2x800000, .i32⟩ : BufTy).Contents (Elt Ideal))
    (p : (⟨1, ![50000]⟩ : Shape).Idx) : Cert.ReferenceIdeal.Hand.degMax (F := Ideal) e p ≠ 0 := by
  unfold Cert.ReferenceIdeal.Hand.degMax
  generalize Host.scatterAdd (F := Ideal) Cert.ReferenceIdeal.scatter_S50000_S800000x1_S800000_n_0_0_1 _ _ _ = X
  exact maxOnes_ne_zero X _ p

/-- The kernel program's mean of edge messages is the reference's quotient of the same aggregate by the floored counts. -/
theorem meanOf_eq (msg : (⟨Cert.KernelIdeal.S800000x64, .f32⟩ : BufTy).Contents (Elt Ideal))
    (e : (⟨Cert.KernelIdeal.S2x800000, .i32⟩ : BufTy).Contents (Elt Ideal)) :
    Cert.KernelIdeal.Hand.meanOf (F := Ideal) msg (Cert.KernelIdeal.Hand.dst (F := Ideal) e)
        (Cert.KernelIdeal.Hand.invDegOf (F := Ideal) (Cert.KernelIdeal.Hand.dst (F := Ideal) e))
      = Host.divf
          (Host.scatterAdd Cert.ReferenceIdeal.scatter_S50000x64_S800000x1_S800000x64_1_0_0_1
            (broadcastInDim Cert.ReferenceIdeal.S50000x64 ![] Cert.ReferenceIdeal.Gen.bcast_S_S50000x64 (constant (F := Ideal) Cert.ReferenceIdeal.S_ .f32 0x00000000#32))
            (Cert.ReferenceIdeal.Hand.dstIdx (F := Ideal) e) msg)
          (broadcastInDim Cert.ReferenceIdeal.S50000x64 ![0, 1] Cert.ReferenceIdeal.Gen.bcast_S50000x1_S50000x64_0_1
            (broadcastInDim Cert.ReferenceIdeal.S50000x1 ![0] Cert.ReferenceIdeal.Gen.bcast_S50000_S50000x1_0 (Cert.ReferenceIdeal.Hand.degMax (F := Ideal) e))) := by
  unfold Cert.KernelIdeal.Hand.meanOf Cert.KernelIdeal.Hand.invDegOf
  rw [aggRec_eq, dmax_eq, col_eq]
  have hdm := degMax_ne_zero e
  generalize Cert.ReferenceIdeal.Hand.degMax (F := Ideal) e = dm at hdm ⊢
  generalize Host.scatterAdd (F := Ideal) Cert.ReferenceIdeal.scatter_S50000x64_S800000x1_S800000x64_1_0_0_1 _ _ _ = A
  exact scale_eq_div A _ dm (fun p => ones_apply _ p) hdm _ _ _ _

/-- The first layer's mean. -/
theorem mean1_eq (x : (⟨Cert.KernelIdeal.S50000x64, .f32⟩ : BufTy).Contents (Elt Ideal))
    (e : (⟨Cert.KernelIdeal.S2x800000, .i32⟩ : BufTy).Contents (Elt Ideal)) :
    Cert.KernelIdeal.Hand.mean1Of (F := Ideal) x (Cert.KernelIdeal.Hand.src (F := Ideal) e) (Cert.KernelIdeal.Hand.dst (F := Ideal) e)
        (Cert.KernelIdeal.Hand.invDegOf (F := Ideal) (Cert.KernelIdeal.Hand.dst (F := Ideal) e))
      = Cert.ReferenceIdeal.Hand.mean (F := Ideal) x e := by
  unfold Cert.KernelIdeal.Hand.mean1Of Cert.ReferenceIdeal.Hand.mean Cert.ReferenceIdeal.Hand.agg
  rw [meanOf_eq, wrapCol_eq, gatherRec_eq]

/-- The second layer's mean: widening what was gathered changes nothing. -/
theorem mean2_eq (h : (⟨Cert.KernelIdeal.S50000x64, .bf16⟩ : BufTy).Contents (Elt Ideal))
    (e : (⟨Cert.KernelIdeal.S2x800000, .i32⟩ : BufTy).Contents (Elt Ideal)) :
    Cert.KernelIdeal.Hand.mean2Of (F := Ideal) h (Cert.KernelIdeal.Hand.src (F := Ideal) e) (Cert.KernelIdeal.Hand.dst (F := Ideal) e)
        (Cert.KernelIdeal.Hand.invDegOf (F := Ideal) (Cert.KernelIdeal.Hand.dst (F := Ideal) e))
      = Cert.ReferenceIdeal.Hand.mean (F := Ideal) h e := by
  unfold Cert.KernelIdeal.Hand.mean2Of Cert.ReferenceIdeal.Hand.mean Cert.ReferenceIdeal.Hand.agg
  rw [meanOf_eq, wrapCol_eq, gatherRec_eq_bf16]
  rfl

end Cert.Bridge

end
-- ==== Proof.BridgeDense.lean ====
/-
  The dense part of a layer, two ways. The tiled regions leave `Spec.dense` of the transposed weights: at (r, j),
  max ((∑ k, a (r, k) · Wlᵀ (k, j)) + (∑ k, x (r, k) · Wrᵀ (k, j)) + bl j) 0. The reference computes
  max ((a · Wlᵀ + bl) + x · Wrᵀ) 0 with whole-array products. Each product read at (r, j) is the same sum over the
  contracted coordinate, and the three summands may be regrouped: addition of extended reals is commutative and
  associative.
-/
import proofs.«416269_j79869211837021_3_alg».proof.Proof.KValue
import proofs.«416269_j79869211837021_3_alg».proof.Proof.RefValue
import proofs.«416269_j79869211837021_3_alg».proof.Proof.Spec
import proofs.«416269_j79869211837021_3_alg».proof.Proof.LibPlainDot
import Idealize.ShloMosaic.Lib.Pipeline.Value
import Idealize.ShloMosaic.Lib.ValueIdx
import Idealize.ShloMosaic.PureOps.Ideal.Laws

noncomputable section

namespace Cert.Bridge

open Idealize.ShloMosaic Idealize.ShloMosaic.ValueIdx

/-- The bias, as the reference broadcasts it over the rows, read at (r, q). -/
theorem bias_apply (bl : (⟨1, ![64]⟩ : Shape).Idx → EReal) (r : Fin 50000) (q : Fin 64) :
    broadcastInDim Cert.ReferenceIdeal.S50000x64 ![0, 1] Cert.ReferenceIdeal.Gen.bcast_S1x64_S50000x64_0_1
        (broadcastInDim Cert.ReferenceIdeal.S1x64 ![1] Cert.ReferenceIdeal.Gen.bcast_S64_S1x64_1 bl) (ix2 r q)
      = bl (ix1 q) := by
  refine (broadcastInDim_apply ![0, 1] _ _ (ix2 r q) (ix2 (0 : Fin 1) q) (fun ax => ?_)).trans ?_
  · match ax with
    | ⟨0, _⟩ => exact (if_pos rfl).symm
    | ⟨1, _⟩ => exact (if_neg (show ¬ ((64 : ℕ) = 1) by decide)).symm
  · refine broadcastInDim_apply ![1] _ _ (ix2 (0 : Fin 1) q) (ix1 q) (fun ax => ?_)
    match ax with
    | ⟨0, _⟩ => exact (if_neg (show ¬ ((64 : ℕ) = 1) by decide)).symm

/-- The zero the reference rectifies against, read at any index. -/
theorem zero_apply (j : (⟨2, ![50000, 64]⟩ : Shape).Idx) :
    broadcastInDim Cert.ReferenceIdeal.S50000x64 ![] Cert.ReferenceIdeal.Gen.bcast_S_S50000x64
        (constant (F := Ideal) Cert.ReferenceIdeal.S_ .f32 0x00000000#32) j = (0 : EReal) := by
  refine (broadcastInDim_apply ![] _ _ j ix0 (fun ax => ax.elim0)).trans ?_
  rw [constant_apply, Ideal.ofBits_zero_f32]

/-- The regions' dense part of the transposed weights is the reference's. -/
theorem dense_eq_lin (a x : (⟨2, ![50000, 64]⟩ : Shape).Idx → EReal) (wl wr : (⟨2, ![64, 64]⟩ : Shape).Idx → EReal)
    (bl : (⟨1, ![64]⟩ : Shape).Idx → EReal) :
    Cert.Spec.dense a x (Cert.KernelIdeal.Hand.tr (F := Ideal) wl) bl (Cert.KernelIdeal.Hand.tr (F := Ideal) wr)
      = Cert.ReferenceIdeal.Hand.lin (F := Ideal) a x wl bl wr := by
  funext j
  obtain ⟨r, q, rfl⟩ : ∃ (r : Fin 50000) (q : Fin 64), j = ix2 r q := ⟨j 0, j 1, eq_ix2 j⟩
  rw [Cert.Spec.dense_apply]
  unfold Cert.Spec.denseAt Cert.ReferenceIdeal.Hand.lin Cert.KernelIdeal.Hand.tr
  simp only [maximumf_apply, addf_apply]
  rw [Cert.LibPlainDot.dotGeneral_apply Cert.ReferenceIdeal.dot_S50000x64_S64x64_S50000x64_1_0_0_1_n_n rfl none a _ r q,
    Cert.LibPlainDot.dotGeneral_apply Cert.ReferenceIdeal.dot_S50000x64_S64x64_S50000x64_1_0_0_1_n_n rfl none x _ r q,
    bias_apply, zero_apply, add_right_comm]

end Cert.Bridge

end
-- ==== Proof.BridgeOut.lean ====
/-
  The two programs' results are one function of the arguments: layer by layer the kernel program's mean is the
  reference's, the regions' dense part of the transposed weights is the reference's, and the readout is the same host
  operations (a widening of the gathered rows changing nothing).
-/
import proofs.«416269_j79869211837021_3_alg».proof.Proof.BridgeMean
import proofs.«416269_j79869211837021_3_alg».proof.Proof.BridgeDense
import proofs.«416269_j79869211837021_3_alg».proof.Proof.KOut

noncomputable section

namespace Cert.Bridge

open Idealize.ShloMosaic Idealize.ShloMosaic.ValueIdx

section
attribute [local irreducible] Host.gather Host.scatter Host.reduceWindow

theorem counts_eq (batch : (⟨Cert.KernelIdeal.S50000, .i32⟩ : BufTy).Contents (Elt Ideal)) :
    Cert.KernelIdeal.Hand.counts (F := Ideal) batch = Cert.ReferenceIdeal.Hand.counts (F := Ideal) batch := rfl

theorem centerRow_eq (batch : (⟨Cert.KernelIdeal.S50000, .i32⟩ : BufTy).Contents (Elt Ideal)) (cpos : (⟨Cert.KernelIdeal.S500, .i32⟩ : BufTy).Contents (Elt Ideal)) :
    Cert.KernelIdeal.Hand.centerRow (F := Ideal) batch cpos = Cert.ReferenceIdeal.Hand.centerRow (F := Ideal) batch cpos := by
  unfold Cert.KernelIdeal.Hand.centerRow Cert.ReferenceIdeal.Hand.centerRow
  rw [counts_eq]

theorem centerIdx_eq (batch : (⟨Cert.KernelIdeal.S50000, .i32⟩ : BufTy).Contents (Elt Ideal)) (cpos : (⟨Cert.KernelIdeal.S500, .i32⟩ : BufTy).Contents (Elt Ideal)) :
    Cert.KernelIdeal.Hand.centerIdx (F := Ideal) batch cpos = Cert.ReferenceIdeal.Hand.centerIdx (F := Ideal) batch cpos := by
  unfold Cert.KernelIdeal.Hand.centerIdx Cert.ReferenceIdeal.Hand.centerIdx
  rw [centerRow_eq]

/-- The centre rows gathered: one operation in both programs. -/
theorem gatherCenter_eq (h : (⟨Cert.KernelIdeal.S50000x64, .bf16⟩ : BufTy).Contents (Elt Ideal)) (idx : (⟨Cert.KernelIdeal.S500x1, .i32⟩ : BufTy).Contents (Elt Ideal)) :
    Host.gather Cert.KernelIdeal.gather_S50000x64_S500x1_S500x64_1_0_n_n_0_1_164 h idx
      = Host.gather Cert.ReferenceIdeal.gather_S50000x64_S500x1_S500x64_1_0_n_n_0_1_164 h idx := rfl

/-- The readout is the same function in both programs. -/
theorem readout_eq (h : (⟨Cert.KernelIdeal.S50000x64, .bf16⟩ : BufTy).Contents (Elt Ideal)) (batch : (⟨Cert.KernelIdeal.S50000, .i32⟩ : BufTy).Contents (Elt Ideal)) (cpos : (⟨Cert.KernelIdeal.S500, .i32⟩ : BufTy).Contents (Elt Ideal))
    (wlin : (⟨Cert.KernelIdeal.S1x64, .f32⟩ : BufTy).Contents (Elt Ideal)) (blin : (⟨Cert.KernelIdeal.S1, .f32⟩ : BufTy).Contents (Elt Ideal)) :
    Cert.KernelIdeal.Hand.readout (F := Ideal) h batch cpos wlin blin
      = Cert.ReferenceIdeal.Hand.readout (F := Ideal) h batch cpos wlin blin := by
  unfold Cert.KernelIdeal.Hand.readout Cert.ReferenceIdeal.Hand.readout
  rw [centerIdx_eq, gatherCenter_eq]
  rfl

end

/-- The kernel program's result is the reference's. -/
theorem out_eq (x : (⟨Cert.KernelIdeal.S50000x64, .f32⟩ : BufTy).Contents (Elt Ideal)) (e : (⟨Cert.KernelIdeal.S2x800000, .i32⟩ : BufTy).Contents (Elt Ideal)) (batch : (⟨Cert.KernelIdeal.S50000, .i32⟩ : BufTy).Contents (Elt Ideal)) (cpos : (⟨Cert.KernelIdeal.S500, .i32⟩ : BufTy).Contents (Elt Ideal))
    (wl1 : (⟨Cert.KernelIdeal.S64x64, .f32⟩ : BufTy).Contents (Elt Ideal)) (bl1 : (⟨Cert.KernelIdeal.S64, .f32⟩ : BufTy).Contents (Elt Ideal)) (wr1 : (⟨Cert.KernelIdeal.S64x64, .f32⟩ : BufTy).Contents (Elt Ideal))
    (wl2 : (⟨Cert.KernelIdeal.S64x64, .f32⟩ : BufTy).Contents (Elt Ideal)) (bl2 : (⟨Cert.KernelIdeal.S64, .f32⟩ : BufTy).Contents (Elt Ideal)) (wr2 : (⟨Cert.KernelIdeal.S64x64, .f32⟩ : BufTy).Contents (Elt Ideal))
    (wlin : (⟨Cert.KernelIdeal.S1x64, .f32⟩ : BufTy).Contents (Elt Ideal)) (blin : (⟨Cert.KernelIdeal.S1, .f32⟩ : BufTy).Contents (Elt Ideal)) :
    Cert.KernelIdeal.Hand.kout x e batch cpos wl1 bl1 wr1 wl2 bl2 wr2 wlin blin
      = Cert.ReferenceIdeal.Hand.out (F := Ideal) x e batch cpos wl1 bl1 wr1 wl2 bl2 wr2 wlin blin := by
  unfold Cert.KernelIdeal.Hand.kout Cert.KernelIdeal.Hand.h2Of Cert.KernelIdeal.Hand.h1Of
    Cert.ReferenceIdeal.Hand.out Cert.ReferenceIdeal.Hand.layer
  rw [mean1_eq, dense_eq_lin, mean2_eq, dense_eq_lin, readout_eq]

end Cert.Bridge

end
-- ==== Proof.lean ====
/-
  Two graph-convolution layers and a readout, against their reference, on the extended reals.

  Both programs compute, for node features x [50000, 64] and an edge list (src, dst) of 800000 edges, two layers of
      h' = max ((mean h) · Wlᵀ + bl + h · Wrᵀ) 0,      mean h = (rows of h at src, summed into the rows at dst) / max(count, 1),
  and then, for each of 500 graphs, the row of the last layer at the graph's centre node mapped by a [1, 64] matrix plus
  a bias. The kernel program runs each layer's dense part in a tiled region of five row blocks and everything else on the
  host; the reference runs on the host alone.

  * Each region leaves in its output array the dense part `Spec.dense` of the arrays it finds (Proof/Region.lean): block t
    holds rows 10000 t … 10000 t + 9999, and a row of the dense part depends on the same row of its operands only.
  * The kernel program's host stretches, read back (Proof/KStages.lean), and its run with the result buffer kept in the
    post (Proof/KernelRun.lean) give its result as one function `kout` of the twelve arguments (Proof/KFinal.lean).
  * The reference's run gives its result as `out` of the arguments (Proof/RefRun.lean over Proof/RefValue.lean).
  * `kout = out` (Proof/BridgeOut.lean): the kernel program scales the aggregate by 1 / max(count, 1) where the reference
    divides by max(count, 1) — equal on the extended reals because max(count, 1) ≥ 1 is not zero —; the dense part adds
    its three summands in another order; a product with transposed weights is the same sum over the contracted
    coordinate; a change of float format is the identity. No finiteness of the inputs is used.
-/
import proofs.«416269_j79869211837021_3_alg».proof.Defs
import proofs.«416269_j79869211837021_3_alg».proof.Proof.Gen.Kernel
import proofs.«416269_j79869211837021_3_alg».proof.Proof.Gen.Kernel.Skeleton
import proofs.«416269_j79869211837021_3_alg».proof.Proof.Gen.Kernel.Launch
import proofs.«416269_j79869211837021_3_alg».proof.Proof.Gen.Kernel.Points
import proofs.«416269_j79869211837021_3_alg».proof.Proof.Gen.Kernel.Frame
import proofs.«416269_j79869211837021_3_alg».proof.Proof.Gen.KernelIdeal
import proofs.«416269_j79869211837021_3_alg».proof.Proof.Gen.KernelIdeal.Skeleton
import proofs.«416269_j79869211837021_3_alg».proof.Proof.Gen.KernelIdeal.Launch
import proofs.«416269_j79869211837021_3_alg».proof.Proof.Gen.KernelIdeal.Points
import proofs.«416269_j79869211837021_3_alg».proof.Proof.Gen.KernelIdeal.Frame
import proofs.«416269_j79869211837021_3_alg».proof.Proof.Gen.ReferenceIdeal
import proofs.«416269_j79869211837021_3_alg».proof.Proof.Gen.Pre_finite_inputs
import proofs.«416269_j79869211837021_3_alg».proof.Proof.KFinal
import proofs.«416269_j79869211837021_3_alg».proof.Proof.RefRun
import proofs.«416269_j79869211837021_3_alg».proof.Proof.BridgeOut
import Idealize.ShloMosaic.Adequacy
import Idealize.ShloMosaic.Init

noncomputable section

namespace Cert.Proof

open Idealize.ShloMosaic Idealize.SL.Sem

/-- The word-level kernel program runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and leaves its arguments alone: its run, the result dropped. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the result `kout` of the arguments. -/
theorem algebraic : Cert.algebraic_KernelIdeal_ReferenceIdeal := by
  intro m ρ m' ρ' _ hagree
  refine ⟨fun c => Cert.KernelIdeal.Hand.kout
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    Cert.KernelIdeal.Hand.kernel_run m ρ, ?_⟩
  refine (θ_run Cert.ReferenceIdeal.defs _ _).mono (fun _ h c => ⟨(h c).1.trans ?_, (h c).2⟩)
    (Cert.ReferenceIdeal.Hand.run (F := Ideal) m' ρ')
  obtain ⟨h0, h1, h2, h3, h4, h5, h6, h7, h8, h9, h10, h11⟩ := hagree c
  rw [h0, h1, h2, h3, h4, h5, h6, h7, h8, h9, h10, h11]
  exact (Cert.Bridge.out_eq _ _ _ _ _ _ _ _ _ _ _ _).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
